-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S10x128 : Shape := ⟨2, ![10, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S10x128 : S_.BroadcastsInDim S10x128 (![] : Fin 0 → Fin S10x128.rank)
  reducesTo_S10x128_S_d0_1 : S10x128.ReducesTo [0, 1] S_

variable [Facts]

def fn_part1 {F : FTy → Type} [FloatOps F] (main_v13 : IVec S_ 1) (main_v16 : IVec S10x128 1) : IVec S_ 1 :=
  let main_c_5 : IVec S_ 1 := constantI S_ 1 1#1
  let main_v17 : IVec S_ 1 := (fun x v => Host.reduce IntOp.andi x v reducesTo_S10x128_S_d0_1 h_S_) main_v16 main_c_5
  let main_v18 : IVec S_ 1 := andi main_v13 main_v17
  main_v18

def fn {F : FTy → Type} [FloatOps F] (main_arg0 : FVec F S50000x128 .f32) (main_arg1 : IVec S2x800000 32) (main_arg2 : IVec S50000 32) (main_arg3 : FVec F S128x128 .f32) (main_arg4 : FVec F S128x128 .f32) (main_arg5 : FVec F S10x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S10x128 .f32 := Host.absf main_arg5
  let main_cst_4 : FVec F S_ .f32 := constant S_ .f32 0x7F800000#32
  let main_v15 : FVec F S10x128 .f32 := broadcastInDim S10x128 ![] bcast_S_S10x128 main_cst_4
  let main_v16 : IVec S10x128 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S10x128 : Shape := ⟨2, ![10, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S128x10 : Shape := ⟨2, ![128, 10]⟩
abbrev S64x10 : Shape := ⟨2, ![64, 10]⟩
abbrev S5000x128 : Shape := ⟨2, ![5000, 128]⟩
abbrev S5000x1 : Shape := ⟨2, ![5000, 1]⟩
abbrev S64x128 : Shape := ⟨2, ![64, 128]⟩
abbrev S5000x64 : Shape := ⟨2, ![5000, 64]⟩
abbrev S64x5000 : Shape := ⟨2, ![64, 5000]⟩

abbrev nBuf : Space → Nat
  | .hbm => 28
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128x128, .f32⟩
  | .hbm, ⟨5, _⟩ => ⟨S10x128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S50000x1, .i32⟩
  | .hbm, ⟨24, _⟩ => ⟨S128x128, .f32⟩
  | .hbm, ⟨25, _⟩ => ⟨S128x128, .f32⟩
  | .hbm, ⟨26, _⟩ => ⟨S128x10, .f32⟩
  | .hbm, ⟨27, _⟩ => ⟨S64x10, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .i32⟩
  | .local _ .vmem, ⟨5, _⟩ => ⟨S5000x1, .i32⟩
  | .local _ .vmem, ⟨6, _⟩ => ⟨S128x128, .f32⟩
  | .local _ .vmem, ⟨7, _⟩ => ⟨S128x128, .f32⟩
  | .local _ .vmem, ⟨8, _⟩ => ⟨S128x10, .f32⟩
  | .local _ .vmem, ⟨9, _⟩ => ⟨S64x10, .f32⟩
  | .local _ .vmem, ⟨10, _⟩ => ⟨S64x128, .f32⟩
  | .local _ .vmem, ⟨11, _⟩ => ⟨S64x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v42 : BitVec 1 := Scalar.cmpi .eq arg0 c9_i32
  let v43 : BitVec 32 := Scalar.extui v42
  let c0_i32_23 : BitVec 32 := 0#32
  let v44 : BitVec 1 := Scalar.cmpi .ne v43 c0_i32_23
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S50000_S50000x1 : S50000.ShapeCasts S50000x1
  transposes_S128x128_S128x128_1_0 : S128x128.Transposes [1, 0] S128x128
  transposes_S10x128_S128x10_1_0 : S10x128.Transposes [1, 0] S128x10
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x64_d1_w32 : S5000x64.Iotas .tc 32 [1]
  broadcasts_S5000x1_S5000x64 : S5000x1.Broadcasts S5000x64
  natLt_1_32 : 1 < 32
  transposes_S5000x64_p1_0_S64x5000 : S5000x64.Transposes [1, 0] S64x5000
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S64x10_S64x10_0_0 : ∀ a, (![0, 0] : Fin 2 → Nat) a + S64x10.size a ≤ S64x10.size a
  h_S64x10 : 0 < S64x10.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S64x5000_S5000x128_S64x128_1_0_0_1_n_n_wf : DotDims.WF S64x5000 S5000x128 S64x128 [1] [0] [0] [1] [] []
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .i32 = 32 ∨ (Rect.block (s := S50000x1) S5000x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x10.size a ≤ S128x10.size a
  hwx0_5 : ∀ i : grid0.Coords, EltTy.bits .f32 = 32 ∨ (Rect.block (s := S128x10) S128x10.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x10.size a ≤ S64x10.size a
  hwx0_6 : ∀ i : grid0.Coords, EltTy.bits .f32 = 32 ∨ (Rect.block (s := S64x10) S64x10.size (cc0_transform_6 i) (hinb0_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S64x5000_S5000x128_S64x128_1_0_0_1_n_n : DotDims S64x5000 S5000x128 S64x128 where
  lhsContracting := [1]
  rhsContracting := [0]
  lhsNonContracting := [0]
  rhsNonContracting := [1]
  lhsBatch := []
  rhsBatch := []
  wf := dot_S64x5000_S5000x128_S64x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S128x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S64x10.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S10x128 : Shape := ⟨2, ![10, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S128x10 : Shape := ⟨2, ![128, 10]⟩
abbrev S64x10 : Shape := ⟨2, ![64, 10]⟩

abbrev nBuf : Space → Nat
  | .hbm => 49
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128x128, .f32⟩
  | .hbm, ⟨5, _⟩ => ⟨S10x128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S128x128, .f32⟩
  | .hbm, ⟨24, _⟩ => ⟨S50000x128, .f32⟩
  | .hbm, ⟨25, _⟩ => ⟨S128x128, .f32⟩
  | .hbm, ⟨26, _⟩ => ⟨S50000x128, .f32⟩
  | .hbm, ⟨27, _⟩ => ⟨S50000x128, .f32⟩
  | .hbm, ⟨28, _⟩ => ⟨S_, .f32⟩
  | .hbm, ⟨29, _⟩ => ⟨S50000x128, .f32⟩
  | .hbm, ⟨30, _⟩ => ⟨S50000x128, .f32⟩
  | .hbm, ⟨31, _⟩ => ⟨S_, .f32⟩
  | .hbm, ⟨32, _⟩ => ⟨S64x128, .f32⟩
  | .hbm, ⟨33, _⟩ => ⟨S50000x1, .i32⟩
  | .hbm, ⟨34, _⟩ => ⟨S64x128, .f32⟩
  | .hbm, ⟨35, _⟩ => ⟨S_, .f32⟩
  | .hbm, ⟨36, _⟩ => ⟨S50000, .f32⟩
  | .hbm, ⟨37, _⟩ => ⟨S_, .f32⟩
  | .hbm, ⟨38, _⟩ => ⟨S64, .f32⟩
  | .hbm, ⟨39, _⟩ => ⟨S50000x1, .i32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S64x1, .f32⟩
  | .hbm, ⟨45, _⟩ => ⟨S64x128, .f32⟩
  | .hbm, ⟨46, _⟩ => ⟨S64x128, .f32⟩
  | .hbm, ⟨47, _⟩ => ⟨S128x10, .f32⟩
  | .hbm, ⟨48, _⟩ => ⟨S64x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  transposes_S10x128_S128x10_1_0 : S10x128.Transposes [1, 0] S128x10
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.Pieces.lean ====
/-
  What each control case of the body leaves in the two accumulators and in the output block, as the body's own
  arithmetic terms.

  The body has three cases over the ten grid points. At the first point it zeroes both accumulators and then adds
  the point's contribution to them; at the middle points it adds the contribution to what the point before left; at
  the last point it does the same and then divides and multiplies into the output block. Each accumulator is
  stored whole, so what a case leaves in it is the value stored last: the sums step of the body over the point's
  blocks and the previous sums (the stored zeros at the first point), and likewise for the counts. The output
  block at the last point is the readout of the two accumulators AS JUST UPDATED and the readout matrix.
-/
import proofs.«407730_j60662118089064_1_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic
open Idealize.SL Idealize.SL.Sem

variable {F : FTy → Type} [FloatOps F]

theorem hz : (![0, 0] : Fin 2 → Nat) = fun _ => 0 := funext fun a => by fin_cases a <;> rfl

/-! ## The middle points -/

theorem sout0_B_0_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x10 .f32) (harg6 : arg6.IsWhole) (arg7 : Memref sig .tc .vmem S64x10 .f32) (harg7 : arg7.IsWhole) (arg8 : Memref sig .tc .vmem S64x128 .f32) (harg8 : arg8.IsWhole) (arg9 : Memref sig .tc .vmem S64x128 .f32) (harg9 : arg9.IsWhole) (hc0 : ¬cond0_0 i) (hc1 : ¬cond0_1 i) (x0 : Vec F S5000x128 .f32) (x1 : Vec F S5000x128 .f32) (x2 : Vec F S5000x1 .i32) (x3 : Vec F S128x128 .f32) (x4 : Vec F S128x128 .f32) (x5 : Vec F S128x10 .f32) (xs0 : Vec F S64x128 .f32) (xs1 : Vec F S64x128 .f32) :
    sout0_B_0 c i arg1 harg1 arg2 harg2 arg3 harg3 arg4 harg4 arg5 harg5 arg6 harg6 arg7 harg7 arg8 harg8 arg9 harg9 hc0 hc1 x0 x1 x2 x3 x4 x5 xs0 xs1 = k0_pay1 (k0_pay8 x0 x1 x3 x4 x2 xs0) := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 x5 xs0 xs1)]
  unfold kernelRun0_B
  dsimp only
  sl_unfold_words
  rw [View.canon_unit_zero hz]
  simp only [View.readAt_eq_ld, harg1.read_unread, harg2.read_unread, harg3.read_unread, harg4.read_unread, harg5.read_unread,
    harg6.read_unread, harg8.read_unread, harg9.read_unread, View.ld_unit_zero (S := S5000x128) hz, View.ld_unit_zero (S := S128x128) hz,
    View.ld_unit_zero (S := S5000x1) hz, View.ld_unit_zero (S := S64x128) hz, View.ld_unit_zero (S := S128x10) hz,
    View.readCov_unit_zero (S := S64x128) _ hz]

theorem sout0_B_1_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x10 .f32) (harg6 : arg6.IsWhole) (arg7 : Memref sig .tc .vmem S64x10 .f32) (harg7 : arg7.IsWhole) (arg8 : Memref sig .tc .vmem S64x128 .f32) (harg8 : arg8.IsWhole) (arg9 : Memref sig .tc .vmem S64x128 .f32) (harg9 : arg9.IsWhole) (hc0 : ¬cond0_0 i) (hc1 : ¬cond0_1 i) (x0 : Vec F S5000x128 .f32) (x1 : Vec F S5000x128 .f32) (x2 : Vec F S5000x1 .i32) (x3 : Vec F S128x128 .f32) (x4 : Vec F S128x128 .f32) (x5 : Vec F S128x10 .f32) (xs0 : Vec F S64x128 .f32) (xs1 : Vec F S64x128 .f32) :
    sout0_B_1 c i arg1 harg1 arg2 harg2 arg3 harg3 arg4 harg4 arg5 harg5 arg6 harg6 arg7 harg7 arg8 harg8 arg9 harg9 hc0 hc1 x0 x1 x2 x3 x4 x5 xs0 xs1 = k0_pay2 (k0_pay7 x2) xs1 := by
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 x0 x1 x2 x3 x4 x5 xs0 xs1)]
  unfold kernelRun0_B
  dsimp only
  sl_unfold_words
  rw [View.canon_unit_zero hz]
  simp only [View.readAt_eq_ld, harg1.read_unread, harg2.read_unread, harg3.read_unread, harg4.read_unread, harg5.read_unread,
    harg6.read_unread, harg8.read_unread, harg9.read_unread, View.ld_unit_zero (S := S5000x128) hz, View.ld_unit_zero (S := S128x128) hz,
    View.ld_unit_zero (S := S5000x1) hz, View.ld_unit_zero (S := S64x128) hz, View.ld_unit_zero (S := S128x10) hz,
    View.readCov_unit_zero (S := S64x128) _ hz]

/-! ## The last point -/

theorem sout0_C_0_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x10 .f32) (harg6 : arg6.IsWhole) (arg7 : Memref sig .tc .vmem S64x10 .f32) (harg7 : arg7.IsWhole) (arg8 : Memref sig .tc .vmem S64x128 .f32) (harg8 : arg8.IsWhole) (arg9 : Memref sig .tc .vmem S64x128 .f32) (harg9 : arg9.IsWhole) (hc0 : ¬cond0_0 i) (hc1 : cond0_1 i) (x0 : Vec F S5000x128 .f32) (x1 : Vec F S5000x128 .f32) (x2 : Vec F S5000x1 .i32) (x3 : Vec F S128x128 .f32) (x4 : Vec F S128x128 .f32) (x5 : Vec F S128x10 .f32) (xs0 : Vec F S64x128 .f32) (xs1 : Vec F S64x128 .f32) :
    sout0_C_0 c i arg1 harg1 arg2 harg2 arg3 harg3 arg4 harg4 arg5 harg5 arg6 harg6 arg7 harg7 arg8 harg8 arg9 harg9 hc0 hc1 x0 x1 x2 x3 x4 x5 xs0 xs1 = k0_pay1 (k0_pay8 x0 x1 x3 x4 x2 xs0) := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 x4 x5 xs0 xs1)]
  unfold kernelRun0_C
  dsimp only
  sl_unfold_words
  rw [View.canon_unit_zero hz]
  simp only [View.readAt_eq_ld, harg1.read_unread, harg2.read_unread, harg3.read_unread, harg4.read_unread, harg5.read_unread,
    harg6.read_unread, harg8.read_unread, harg9.read_unread, View.ld_unit_zero (S := S5000x128) hz, View.ld_unit_zero (S := S128x128) hz,
    View.ld_unit_zero (S := S5000x1) hz, View.ld_unit_zero (S := S64x128) hz, View.ld_unit_zero (S := S128x10) hz,
    View.readCov_unit_zero (S := S64x128) _ hz]

theorem sout0_C_1_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x10 .f32) (harg6 : arg6.IsWhole) (arg7 : Memref sig .tc .vmem S64x10 .f32) (harg7 : arg7.IsWhole) (arg8 : Memref sig .tc .vmem S64x128 .f32) (harg8 : arg8.IsWhole) (arg9 : Memref sig .tc .vmem S64x128 .f32) (harg9 : arg9.IsWhole) (hc0 : ¬cond0_0 i) (hc1 : cond0_1 i) (x0 : Vec F S5000x128 .f32) (x1 : Vec F S5000x128 .f32) (x2 : Vec F S5000x1 .i32) (x3 : Vec F S128x128 .f32) (x4 : Vec F S128x128 .f32) (x5 : Vec F S128x10 .f32) (xs0 : Vec F S64x128 .f32) (xs1 : Vec F S64x128 .f32) :
    sout0_C_1 c i arg1 harg1 arg2 harg2 arg3 harg3 arg4 harg4 arg5 harg5 arg6 harg6 arg7 harg7 arg8 harg8 arg9 harg9 hc0 hc1 x0 x1 x2 x3 x4 x5 xs0 xs1 = k0_pay2 (k0_pay7 x2) xs1 := by
  unfold sout0_C_1
  rw [View.read_writes_eq_canon _ _ _ (scover0_C_1 c i arg1 harg1 arg2 harg2 arg3 harg3 arg4 harg4 arg5 harg5 arg6 harg6 arg7 harg7 arg8 harg8 arg9 harg9 hc0 hc1 x0 x1 x2 x3 x4 x5 xs0 xs1)]
  unfold kernelRun0_C
  dsimp only
  sl_unfold_words
  rw [View.canon_unit_zero hz]
  simp only [View.readAt_eq_ld, harg1.read_unread, harg2.read_unread, harg3.read_unread, harg4.read_unread, harg5.read_unread,
    harg6.read_unread, harg8.read_unread, harg9.read_unread, View.ld_unit_zero (S := S5000x128) hz, View.ld_unit_zero (S := S128x128) hz,
    View.ld_unit_zero (S := S5000x1) hz, View.ld_unit_zero (S := S64x128) hz, View.ld_unit_zero (S := S128x10) hz,
    View.readCov_unit_zero (S := S64x128) _ hz]

theorem out0_C_6_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x10 .f32) (harg6 : arg6.IsWhole) (arg7 : Memref sig .tc .vmem S64x10 .f32) (harg7 : arg7.IsWhole) (arg8 : Memref sig .tc .vmem S64x128 .f32) (harg8 : arg8.IsWhole) (arg9 : Memref sig .tc .vmem S64x128 .f32) (harg9 : arg9.IsWhole) (hc0 : ¬cond0_0 i) (hc1 : cond0_1 i) (x0 : Vec F S5000x128 .f32) (x1 : Vec F S5000x128 .f32) (x2 : Vec F S5000x1 .i32) (x3 : Vec F S128x128 .f32) (x4 : Vec F S128x128 .f32) (x5 : Vec F S128x10 .f32) (xs0 : Vec F S64x128 .f32) (xs1 : Vec F S64x128 .f32) :
    out0_C_6 c i arg1 harg1 arg2 harg2 arg3 harg3 arg4 harg4 arg5 harg5 arg6 harg6 arg7 harg7 arg8 harg8 arg9 harg9 hc0 hc1 x0 x1 x2 x3 x4 x5 xs0 xs1 = k0_pay3 (k0_pay1 (k0_pay8 x0 x1 x3 x4 x2 xs0)) (k0_pay2 (k0_pay7 x2) xs1) x5 := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 x0 x1 x2 x3 x4 x5 xs0 xs1)]
  unfold kernelRun0_C
  dsimp only
  sl_unfold_words
  rw [View.canon_unit_zero hz]
  simp only [View.readAt_eq_ld, harg1.read_unread, harg2.read_unread, harg3.read_unread, harg4.read_unread, harg5.read_unread,
    harg6.read_unread, harg8.read_unread, harg9.read_unread, View.ld_unit_zero (S := S5000x128) hz, View.ld_unit_zero (S := S128x128) hz,
    View.ld_unit_zero (S := S5000x1) hz, View.ld_unit_zero (S := S64x128) hz, View.ld_unit_zero (S := S128x10) hz,
    View.readCov_unit_zero (S := S64x128) _ hz]

/-! ## The first point -/

theorem sout0_A_0_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x10 .f32) (harg6 : arg6.IsWhole) (arg7 : Memref sig .tc .vmem S64x10 .f32) (harg7 : arg7.IsWhole) (arg8 : Memref sig .tc .vmem S64x128 .f32) (harg8 : arg8.IsWhole) (arg9 : Memref sig .tc .vmem S64x128 .f32) (harg9 : arg9.IsWhole) (hc0 : cond0_0 i) (hc1 : ¬cond0_1 i) (x0 : Vec F S5000x128 .f32) (x1 : Vec F S5000x128 .f32) (x2 : Vec F S5000x1 .i32) (x3 : Vec F S128x128 .f32) (x4 : Vec F S128x128 .f32) (x5 : Vec F S128x10 .f32)  :
    sout0_A_0 c i arg1 harg1 arg2 harg2 arg3 harg3 arg4 harg4 arg5 harg5 arg6 harg6 arg7 harg7 arg8 harg8 arg9 harg9 hc0 hc1 x0 x1 x2 x3 x4 x5 = k0_pay1 (k0_pay8 x0 x1 x3 x4 x2 (k0_pay4 (F := F))) := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S64x128) hz]
  simp only [View.readAt_eq_ld, harg1.read_unread, harg2.read_unread, harg3.read_unread, harg4.read_unread, harg5.read_unread,
    harg6.read_unread, harg8.read_unread, harg9.read_unread, View.ld_unit_zero (S := S5000x128) hz, View.ld_unit_zero (S := S128x128) hz,
    View.ld_unit_zero (S := S5000x1) hz, View.ld_unit_zero (S := S64x128) hz, View.ld_unit_zero (S := S128x10) hz,
    View.readCov_unit_zero (S := S64x128) _ hz]

theorem sout0_A_1_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x10 .f32) (harg6 : arg6.IsWhole) (arg7 : Memref sig .tc .vmem S64x10 .f32) (harg7 : arg7.IsWhole) (arg8 : Memref sig .tc .vmem S64x128 .f32) (harg8 : arg8.IsWhole) (arg9 : Memref sig .tc .vmem S64x128 .f32) (harg9 : arg9.IsWhole) (hc0 : cond0_0 i) (hc1 : ¬cond0_1 i) (x0 : Vec F S5000x128 .f32) (x1 : Vec F S5000x128 .f32) (x2 : Vec F S5000x1 .i32) (x3 : Vec F S128x128 .f32) (x4 : Vec F S128x128 .f32) (x5 : Vec F S128x10 .f32)  :
    sout0_A_1 c i arg1 harg1 arg2 harg2 arg3 harg3 arg4 harg4 arg5 harg5 arg6 harg6 arg7 harg7 arg8 harg8 arg9 harg9 hc0 hc1 x0 x1 x2 x3 x4 x5 = k0_pay2 (k0_pay7 x2) (k0_pay5 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S64x128) hz]
  simp only [View.readAt_eq_ld, harg1.read_unread, harg2.read_unread, harg3.read_unread, harg4.read_unread, harg5.read_unread,
    harg6.read_unread, harg8.read_unread, harg9.read_unread, View.ld_unit_zero (S := S5000x128) hz, View.ld_unit_zero (S := S128x128) hz,
    View.ld_unit_zero (S := S5000x1) hz, View.ld_unit_zero (S := S64x128) hz, View.ld_unit_zero (S := S128x10) hz,
    View.readCov_unit_zero (S := S64x128) _ hz]

end Cert.KernelIdeal.Pieces

end
-- ==== Proof.Blocks.lean ====
/-
  The grid points' blocks and the accumulators' steps.

  Point `t` of the ten-point grid sees rows `t·5000 … t·5000 + 4999` of the aggregated features, of the node
  features and of the graph-id column (block index `t` on the row axis, `0` on the other), and the three weight
  matrices whole (block index `(0, 0)`). So a block's entry `(r, k)` is the array's entry `(t·5000 + r, k)`.
  What a point leaves in the sums accumulator is the body's sums step over the point's blocks and what the
  point before left (the stored zeros at the first point); likewise the counts; and at the last point the
  output block is the readout of the two accumulators as that point leaves them.
-/
import proofs.«407730_j60662118089064_1_alg».proof.Proof.Gen.KernelIdeal.Value
import proofs.«407730_j60662118089064_1_alg».proof.Proof.Pieces
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL Idealize.SL.Sem

variable (m : (ℓ : Loc nD τ sig) → Buf (Elt Ideal) ℓ)

/-! ## The arrays as the region finds them, and the blocks, by their literal types

The arrays are named through the windows' own references and kept folded: the aggregated features and the
transposed weights are results of host operations, and nothing below ever computes with them. -/

def arrAgg (c : Dev nD) : S50000x128.Idx → EReal := V m c (Pipeline.arrRef spec0 0)
def arrX (c : Dev nD) : S50000x128.Idx → EReal := V m c (Pipeline.arrRef spec0 1)
def arrId (c : Dev nD) : S50000x1.Idx → BitVec 32 := V m c (Pipeline.arrRef spec0 2)
def arrWr (c : Dev nD) : S128x128.Idx → EReal := V m c (Pipeline.arrRef spec0 3)
def arrWo (c : Dev nD) : S128x128.Idx → EReal := V m c (Pipeline.arrRef spec0 4)
def arrWt (c : Dev nD) : S128x10.Idx → EReal := V m c (Pipeline.arrRef spec0 5)

abbrev blkAgg (c : Dev nD) (t : Fin cfg0.N) : Vec Ideal S5000x128 .f32 := iblk m c 0 t
abbrev blkX (c : Dev nD) (t : Fin cfg0.N) : Vec Ideal S5000x128 .f32 := iblk m c 1 t
abbrev blkId (c : Dev nD) (t : Fin cfg0.N) : Vec Ideal S5000x1 .i32 := iblk m c 2 t
abbrev blkWr (c : Dev nD) (t : Fin cfg0.N) : Vec Ideal S128x128 .f32 := iblk m c 3 t
abbrev blkWo (c : Dev nD) (t : Fin cfg0.N) : Vec Ideal S128x128 .f32 := iblk m c 4 t
abbrev blkWt (c : Dev nD) (t : Fin cfg0.N) : Vec Ideal S128x10 .f32 := iblk m c 5 t

/-- The sums and the counts accumulator after point `n`. -/
abbrev sumsAt (c : Dev nD) (n : ℕ) (hn : n < cfg0.N) : Vec Ideal S64x128 .f32 := (outsAt0 m c n hn).2.1
abbrev cntsAt (c : Dev nD) (n : ℕ) (hn : n < cfg0.N) : Vec Ideal S64x128 .f32 := (outsAt0 m c n hn).2.2

/-! ## The index maps, decided over the grid -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem row_lt (t : Fin cfg0.N) (r : Fin 5000) : t.val * 5000 + r.val < 50000 := by
  have h1 := t.isLt
  have h2 : cfg0.N = 10 := N_0
  have h3 := r.isLt
  omega

/-! ## Where a block's index lies in its array -/

theorem emb_agg (t : Fin cfg0.N) (r : Fin 5000) (k : Fin 128) :
    ((cfg0.win 0).blk t).view.emb (ix2 r k) = ix2 ⟨t.val * 5000 + r.val, row_lt t r⟩ k := by
  funext q; apply Fin.ext
  obtain ⟨e0, e1, -⟩ := idx_facts t
  match q with
  | ⟨0, _⟩ => show win0_0.index t (0 : Fin 2) * 5000 + 1 * r.val = t.val * 5000 + r.val; omega
  | ⟨1, _⟩ => show win0_0.index t (1 : Fin 2) * 128 + 1 * k.val = k.val; omega

theorem emb_x (t : Fin cfg0.N) (r : Fin 5000) (k : Fin 128) :
    ((cfg0.win 1).blk t).view.emb (ix2 r k) = ix2 ⟨t.val * 5000 + r.val, row_lt t r⟩ k := by
  funext q; apply Fin.ext
  obtain ⟨-, -, e0, e1, -⟩ := idx_facts t
  match q with
  | ⟨0, _⟩ => show win0_1.index t (0 : Fin 2) * 5000 + 1 * r.val = t.val * 5000 + r.val; omega
  | ⟨1, _⟩ => show win0_1.index t (1 : Fin 2) * 128 + 1 * k.val = k.val; omega

theorem emb_id (t : Fin cfg0.N) (r : Fin 5000) (z : Fin 1) :
    ((cfg0.win 2).blk t).view.emb (ix2 r z) = ix2 ⟨t.val * 5000 + r.val, row_lt t r⟩ z := by
  funext q; apply Fin.ext
  obtain ⟨-, -, -, -, e0, e1, -⟩ := idx_facts t
  match q with
  | ⟨0, _⟩ => show win0_2.index t (0 : Fin 2) * 5000 + 1 * r.val = t.val * 5000 + r.val; omega
  | ⟨1, _⟩ => show win0_2.index t (1 : Fin 2) * 1 + 1 * z.val = z.val; omega

theorem emb_wr (t : Fin cfg0.N) (k : Fin 128) (d : Fin 128) :
    ((cfg0.win 3).blk t).view.emb (ix2 k d) = ix2 k d := by
  funext q; apply Fin.ext
  obtain ⟨-, -, -, -, -, -, e0, e1, -⟩ := idx_facts t
  match q with
  | ⟨0, _⟩ => show win0_3.index t (0 : Fin 2) * 128 + 1 * k.val = k.val; omega
  | ⟨1, _⟩ => show win0_3.index t (1 : Fin 2) * 128 + 1 * d.val = d.val; omega

theorem emb_wo (t : Fin cfg0.N) (k : Fin 128) (d : Fin 128) :
    ((cfg0.win 4).blk t).view.emb (ix2 k d) = ix2 k d := by
  funext q; apply Fin.ext
  obtain ⟨-, -, -, -, -, -, -, -, e0, e1, -⟩ := idx_facts t
  match q with
  | ⟨0, _⟩ => show win0_4.index t (0 : Fin 2) * 128 + 1 * k.val = k.val; omega
  | ⟨1, _⟩ => show win0_4.index t (1 : Fin 2) * 128 + 1 * d.val = d.val; omega

theorem emb_wt (t : Fin cfg0.N) (d : Fin 128) (o : Fin 10) :
    ((cfg0.win 5).blk t).view.emb (ix2 d o) = ix2 d o := by
  funext q; apply Fin.ext
  obtain ⟨-, -, -, -, -, -, -, -, -, -, e0, e1, -⟩ := idx_facts t
  match q with
  | ⟨0, _⟩ => show win0_5.index t (0 : Fin 2) * 128 + 1 * d.val = d.val; omega
  | ⟨1, _⟩ => show win0_5.index t (1 : Fin 2) * 10 + 1 * o.val = o.val; omega

theorem emb_out (t : Fin cfg0.N) (g : Fin 64) (o : Fin 10) :
    ((cfg0.win 6).blk t).view.emb (ix2 g o) = ix2 g o := by
  funext q; apply Fin.ext
  obtain ⟨-, -, -, -, -, -, -, -, -, -, -, -, e0, e1⟩ := idx_facts t
  match q with
  | ⟨0, _⟩ => show win0_6.index t (0 : Fin 2) * 64 + 1 * g.val = g.val; omega
  | ⟨1, _⟩ => show win0_6.index t (1 : Fin 2) * 10 + 1 * o.val = o.val; omega

/-! ## A block of ANY array, read at an index

Stated for an arbitrary array `G` of the window's shape, so that reading through the block never looks inside
the array. -/

theorem read_agg (G : S50000x128.Idx → EReal) (t : Fin cfg0.N) (r : Fin 5000) (k : Fin 128) :
    ((cfg0.win 0).blk t).view.read (Elt Ideal) G (ix2 r k) = G (ix2 ⟨t.val * 5000 + r.val, row_lt t r⟩ k) := by
  show G (((cfg0.win 0).blk t).view.emb (ix2 r k)) = _
  rw [emb_agg]

theorem read_x (G : S50000x128.Idx → EReal) (t : Fin cfg0.N) (r : Fin 5000) (k : Fin 128) :
    ((cfg0.win 1).blk t).view.read (Elt Ideal) G (ix2 r k) = G (ix2 ⟨t.val * 5000 + r.val, row_lt t r⟩ k) := by
  show G (((cfg0.win 1).blk t).view.emb (ix2 r k)) = _
  rw [emb_x]

theorem read_id (G : S50000x1.Idx → BitVec 32) (t : Fin cfg0.N) (r : Fin 5000) (z : Fin 1) :
    ((cfg0.win 2).blk t).view.read (Elt Ideal) G (ix2 r z) = G (ix2 ⟨t.val * 5000 + r.val, row_lt t r⟩ z) := by
  show G (((cfg0.win 2).blk t).view.emb (ix2 r z)) = _
  rw [emb_id]

theorem read_wr (G : S128x128.Idx → EReal) (t : Fin cfg0.N) (k : Fin 128) (d : Fin 128) :
    ((cfg0.win 3).blk t).view.read (Elt Ideal) G (ix2 k d) = G (ix2 k d) := by
  show G (((cfg0.win 3).blk t).view.emb (ix2 k d)) = _
  rw [emb_wr]

theorem read_wo (G : S128x128.Idx → EReal) (t : Fin cfg0.N) (k : Fin 128) (d : Fin 128) :
    ((cfg0.win 4).blk t).view.read (Elt Ideal) G (ix2 k d) = G (ix2 k d) := by
  show G (((cfg0.win 4).blk t).view.emb (ix2 k d)) = _
  rw [emb_wo]

theorem read_wt (G : S128x10.Idx → EReal) (t : Fin cfg0.N) (d : Fin 128) (o : Fin 10) :
    ((cfg0.win 5).blk t).view.read (Elt Ideal) G (ix2 d o) = G (ix2 d o) := by
  show G (((cfg0.win 5).blk t).view.emb (ix2 d o)) = _
  rw [emb_wt]

theorem read_out (G : S64x10.Idx → EReal) (t : Fin cfg0.N) (g : Fin 64) (o : Fin 10) :
    ((cfg0.win 6).blk t).view.read (Elt Ideal) G (ix2 g o) = G (ix2 g o) := by
  show G (((cfg0.win 6).blk t).view.emb (ix2 g o)) = _
  rw [emb_out]

/-! ## Block reads -/

theorem blkAgg_apply (c : Dev nD) (t : Fin cfg0.N) (r : Fin 5000) (k : Fin 128) :
    blkAgg m c t (ix2 r k) = arrAgg m c (ix2 ⟨t.val * 5000 + r.val, row_lt t r⟩ k) := read_agg (arrAgg m c) t r k

theorem blkX_apply (c : Dev nD) (t : Fin cfg0.N) (r : Fin 5000) (k : Fin 128) :
    blkX m c t (ix2 r k) = arrX m c (ix2 ⟨t.val * 5000 + r.val, row_lt t r⟩ k) := read_x (arrX m c) t r k

theorem blkId_apply (c : Dev nD) (t : Fin cfg0.N) (r : Fin 5000) :
    blkId m c t (ix2 r ⟨0, Nat.one_pos⟩) = arrId m c (ix2 ⟨t.val * 5000 + r.val, row_lt t r⟩ ⟨0, Nat.one_pos⟩) :=
  read_id (arrId m c) t r ⟨0, Nat.one_pos⟩

theorem blkWr_apply (c : Dev nD) (t : Fin cfg0.N) (k d : Fin 128) : blkWr m c t (ix2 k d) = arrWr m c (ix2 k d) :=
  read_wr (arrWr m c) t k d

theorem blkWo_apply (c : Dev nD) (t : Fin cfg0.N) (k d : Fin 128) : blkWo m c t (ix2 k d) = arrWo m c (ix2 k d) :=
  read_wo (arrWo m c) t k d

theorem blkWt_apply (c : Dev nD) (t : Fin cfg0.N) (d : Fin 128) (o : Fin 10) : blkWt m c t (ix2 d o) = arrWt m c (ix2 d o) :=
  read_wt (arrWt m c) t d o

/-! ## The accumulators' steps, as the body's terms -/

/-- At the first point the sums accumulator is the sums step over the stored zeros. -/
theorem sums_first (c : Dev nD) (t : Fin cfg0.N) (h0 : t.val % 10 = 0) (h1 : ¬t.val % 10 = 9) :
    sumsAt m c t.val t.isLt
      = k0_pay1 (k0_pay8 (blkAgg m c t) (blkX m c t) (blkWr m c t) (blkWo m c t) (blkId m c t) (k0_pay4 (F := Ideal))) := by
  show (outsAt0 m c t.val t.isLt).2.1 = _
  rw [outsAt0_A m c t h0 h1]
  dsimp only
  exact Pieces.sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem cnts_first (c : Dev nD) (t : Fin cfg0.N) (h0 : t.val % 10 = 0) (h1 : ¬t.val % 10 = 9) :
    cntsAt m c t.val t.isLt = k0_pay2 (k0_pay7 (blkId m c t)) (k0_pay5 (F := Ideal)) := by
  show (outsAt0 m c t.val t.isLt).2.2 = _
  rw [outsAt0_A m c t h0 h1]
  dsimp only
  exact Pieces.sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)

/-- At a later point it is the sums step over what the point before left. -/
theorem sums_step (c : Dev nD) (t : Fin cfg0.N) (h0 : ¬t.val % 10 = 0) :
    sumsAt m c t.val t.isLt
      = k0_pay1 (k0_pay8 (blkAgg m c t) (blkX m c t) (blkWr m c t) (blkWo m c t) (blkId m c t)
          (sumsAt m c (t.val - 1) (Nat.lt_of_le_of_lt (Nat.sub_le _ _) t.isLt))) := by
  show (outsAt0 m c t.val t.isLt).2.1 = _
  by_cases h1 : t.val % 10 = 9
  · rw [outsAt0_C m c t h0 h1]
    dsimp only
    exact Pieces.sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact Pieces.sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2

theorem cnts_step (c : Dev nD) (t : Fin cfg0.N) (h0 : ¬t.val % 10 = 0) :
    cntsAt m c t.val t.isLt
      = k0_pay2 (k0_pay7 (blkId m c t)) (cntsAt m c (t.val - 1) (Nat.lt_of_le_of_lt (Nat.sub_le _ _) t.isLt)) := by
  show (outsAt0 m c t.val t.isLt).2.2 = _
  by_cases h1 : t.val % 10 = 9
  · rw [outsAt0_C m c t h0 h1]
    dsimp only
    exact Pieces.sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact Pieces.sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2

/-- At the last point the output block is the readout of the accumulators as that point leaves them. -/
theorem out_last (c : Dev nD) (t : Fin cfg0.N) (h0 : ¬t.val % 10 = 0) (h1 : t.val % 10 = 9) :
    (outsAt0 m c t.val t.isLt).1 = k0_pay3 (sumsAt m c t.val t.isLt) (cntsAt m c t.val t.isLt) (blkWt m c t) := by
  rw [sums_step m c t h0, cnts_step m c t h0, outsAt0_C m c t h0 h1]
  dsimp only
  exact Pieces.out0_C_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2

attribute [irreducible] arrAgg arrX arrId arrWr arrWo arrWt

end Cert.KernelIdeal.Blocks

end
-- ==== Proof.LibSumBlocks.lean ====
/-
  A sum over `p·q` consecutive numbers is the sum over `p` blocks of the sums over the `q` numbers of each block.
-/
import Mathlib.Algebra.BigOperators.Fin
import Mathlib.Logic.Equiv.Fin.Basic

namespace Cert.LibSumBlocks

/-- The numbers below `p·q`, block by block: number `t·q + r` is entry `r` of block `t`. -/
theorem sum_fin_mul {M : Type*} [AddCommMonoid M] (p q : ℕ) (R : ℕ → M) :
    ∑ b : Fin (p * q), R b.val = ∑ t ∈ Finset.range p, ∑ r : Fin q, R (t * q + r.val) := by
  rw [Finset.sum_range, ← Equiv.sum_comp finProdFinEquiv, Fintype.sum_prod_type]
  refine Finset.sum_congr rfl fun t _ => Finset.sum_congr rfl fun r _ => ?_
  refine congrArg R ?_
  rw [finProdFinEquiv_apply_val, Nat.mul_comm, Nat.add_comm]

end Cert.LibSumBlocks
-- ==== Proof.PoolLaw.lean ====
/-
  The law that joins a one-hot matrix product, accumulated block by block, to a segment sum.

  A node `n` carries a 32-bit graph id `w`. Pooling node features by graph can be written two ways. As a SEGMENT
  SUM: graph `g` receives the features of the nodes whose id, read as a signed integer, is `g`. As a PRODUCT with
  a one-hot matrix: entry `(n, g)` of the matrix is the bit "`w = g` as words", widened to an integer and
  converted to a float, so it is the extended real 1 or 0, and graph `g` receives the sum over ALL nodes of that
  entry times the node's feature. For `g` below 64 the word comparison and the signed comparison agree, and in
  the extended reals `1 * y = y` and `0 * y = 0` for EVERY `y`, infinite ones included, so the two sums agree
  term by term; no finiteness is needed. Splitting the 50000 nodes into 10 consecutive blocks of 5000 only
  regroups a finite sum in a commutative monoid.
-/
import Idealize.ShloMosaic.Lib.ValueIdx
import Idealize.ShloMosaic.Lib.StableHlo.Predicate
import Idealize.ShloMosaic.PureOps.Ideal.Laws
import proofs.«407730_j60662118089064_1_alg».proof.Proof.LibSumBlocks

noncomputable section

open scoped BigOperators

namespace Cert.Pool

open Idealize.ShloMosaic

/-- The one-hot entry for id word `w` and graph `g`: the comparison bit widened to 32 bits, as a signed integer,
    as an extended real. -/
def ind (w : BitVec 32) (g : ℕ) : EReal :=
  (((BitVec.setWidth 32 (IntOp.cmpi .eq w (BitVec.ofNat 32 g))).toInt : ℝ) : EReal)

/-- A small number as a 32-bit word reads back, signed, as itself. -/
theorem toInt_ofNat_small (g : ℕ) (hg : g < 64) : (BitVec.ofNat 32 g).toInt = (g : Int) := by
  have h1 : (BitVec.ofNat 32 g).toNat = g := by
    rw [BitVec.toNat_ofNat]; exact Nat.mod_eq_of_lt (by omega)
  rw [StableHlo.Predicate.toInt_eq_toNat_of_lt (by rw [h1]; omega), h1]

/-- For a graph number below 64, equality of words is equality of the signed readings. -/
theorem word_eq_iff (w : BitVec 32) (g : ℕ) (hg : g < 64) : w = BitVec.ofNat 32 g ↔ w.toInt = (g : Int) := by
  constructor
  · rintro rfl; exact toInt_ofNat_small g hg
  · intro h; exact BitVec.eq_of_toInt_eq (h.trans (toInt_ofNat_small g hg).symm)

/-- The one-hot entry is 1 where the id is `g` and 0 elsewhere. -/
theorem ind_eq (w : BitVec 32) (g : ℕ) (hg : g < 64) : ind w g = if w.toInt = (g : Int) then 1 else 0 := by
  unfold ind
  by_cases h : w = BitVec.ofNat 32 g
  · rw [if_pos ((word_eq_iff w g hg).mp h), StableHlo.Predicate.cmpi_eq_iff.mpr h]
    norm_num
  · rw [if_neg (fun h' => h ((word_eq_iff w g hg).mpr h'))]
    have h0 : IntOp.cmpi .eq w (BitVec.ofNat 32 g) = 0#1 := by
      rcases BitVec.eq_zero_or_eq_one (IntOp.cmpi .eq w (BitVec.ofNat 32 g)) with h0 | h1
      · exact h0
      · exact absurd (StableHlo.Predicate.cmpi_eq_iff.mp h1) h
    rw [h0]
    norm_num

/-- Multiplying by the one-hot entry keeps the factor where the id is `g` and gives 0 elsewhere, on every
    extended real. -/
theorem ind_mul (w : BitVec 32) (g : ℕ) (hg : g < 64) (y : EReal) :
    ind w g * y = if w.toInt = (g : Int) then y else 0 := by
  rw [ind_eq w g hg]
  split
  · exact one_mul y
  · exact zero_mul y

/-- Ten blocks of 5000 consecutive numbers are the numbers below 50000. -/
theorem sum_blocks {M : Type*} [AddCommMonoid M] (R : ℕ → M) :
    ∑ t ∈ Finset.range 10, ∑ r : Fin 5000, R (t * 5000 + r.val) = ∑ n : Fin 50000, R n.val :=
  (Cert.LibSumBlocks.sum_fin_mul 10 5000 R).symm

/-- THE LAW. The one-hot products summed block by block are the segment sum. -/
theorem pooled (B : ℕ → BitVec 32) (H : ℕ → EReal) (g : ℕ) (hg : g < 64) :
    ∑ t ∈ Finset.range 10, ∑ r : Fin 5000, ind (B (t * 5000 + r.val)) g * H (t * 5000 + r.val)
      = ∑ n : Fin 50000, if (B n.val).toInt = (g : Int) then H n.val else 0 := by
  rw [sum_blocks (fun k => ind (B k) g * H k)]
  exact Finset.sum_congr rfl fun n _ => ind_mul (B n.val) g hg (H n.val)

end Cert.Pool

end
-- ==== Proof.LibDot.lean ====
/-
  A plain matrix product read at an index, at the ideal values.

  For dimension numbers that contract the left operand's axis 1 with the right operand's axis 0 and keep the
  left's axis 0 and the right's axis 1, with no batch axis — an `M × K` by `K × N` product —, the result at
  `(a, b)` is `∑ k, l (a, k) · r (k, b)` over `k : Fin K`: for the kernel's matrix unit accumulating into a
  zero vector and for the host's `dot_general` alike. The library states both as a sum over the contraction
  shape's indices at the operand indices `lhsIdx` / `rhsIdx`; here those are read off, coordinate by
  coordinate, and the sum is re-indexed by the contraction shape's one coordinate.
-/
import Idealize.ShloMosaic.PureOps.Ideal.Laws
import Idealize.ShloMosaic.Lib.ValueIdx

noncomputable section

namespace Cert.LibDot

open Idealize.ShloMosaic Idealize.ShloMosaic.ValueIdx

variable {M K N : Nat} (D : DotDims ⟨2, ![M, K]⟩ ⟨2, ![K, N]⟩ ⟨2, ![M, N]⟩)

/-- The left operand's row is the result's row. -/
theorem lhs_row (hlb : D.lhsBatch = []) (hln : D.lhsNonContracting = [0]) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column is the contraction coordinate. -/
theorem lhs_col (hlc : D.lhsContracting = [1]) (j : (⟨2, ![M, N]⟩ : Shape).Idx) (k : D.contr.Idx) :
    (D.lhsIdx j k 1).val = (k ⟨0, by rw [D.rank_contr, hlc]; exact Nat.one_pos⟩).val :=
  D.lhsIdx_val_of_single hlc j k

/-- The right operand's row is the contraction coordinate. -/
theorem rhs_row (hrc : D.rhsContracting = [0]) (j : (⟨2, ![M, N]⟩ : Shape).Idx) (k : D.contr.Idx) :
    (D.rhsIdx j k 0).val = (k ⟨0, by rw [D.rank_contr, ← D.length_contracting, hrc]; exact Nat.one_pos⟩).val :=
  D.rhsIdx_val_of_single hrc j k

/-- The right operand's column is the result's column. -/
theorem rhs_col (hlb : D.lhsBatch = []) (hrb : D.rhsBatch = []) (hln : D.lhsNonContracting = [0]) (hrn : D.rhsNonContracting = [1])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The contraction shape has one axis, of extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  have h := D.size_contr 0 (by rw [hlc]; exact Nat.one_pos)
  rw [h]
  simp [hlc]

/-- The library's sum over the contraction indices, as the sum over `Fin K` of the products along row `a` of the left
    operand and column `b` of the right. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have e1 : D.lhsIdx (ix2 a b) ((contrEquiv1 D K (contr_rank D hlc) (contr_size D hlc)).symm k) = ix2 a k := by
    funext x; refine Fin.ext ?_
    match x with
    | ⟨0, _⟩ => exact lhs_row D hlb hln _ _
    | ⟨1, _⟩ => exact (lhs_col D hlc _ _).trans hk
  have e2 : D.rhsIdx (ix2 a b) ((contrEquiv1 D K (contr_rank D hlc) (contr_size D hlc)).symm k) = ix2 k b := by
    funext x; refine Fin.ext ?_
    match x with
    | ⟨0, _⟩ => exact (rhs_row D hrc _ _).trans hk
    | ⟨1, _⟩ => exact rhs_col D hlb hrb hln hrn _ _
  rw [e1, e2]

/-- The kernel's matrix product into a zero accumulator, read at `(a, b)`. -/
theorem matmul_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  show FloatOps.matmul D prec l r (constant ⟨2, ![M, N]⟩ .f32 0x00000000#32) (ix2 a b) = _
  rw [Ideal.matmul_constant_zero_apply]
  exact sum_plain D hlc hrc hln hrn hlb hrb l r a b

/-- The host's product read at `(a, b)`. -/
theorem dotGeneral_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    Host.dotGeneral D prec l r (ix2 a b) = ∑ k : Fin K, l (ix2 a k) * r (ix2 k b) := by
  show FloatOps.dotGeneral D prec .single l r (ix2 a b) = _
  rw [Ideal.dotGeneral_apply]
  exact sum_plain D hlc hrc hln hrn hlb hrb l r a b

end Cert.LibDot

end
-- ==== Proof.Payload.lean ====
/-
  The kernel body's arithmetic, read at an index over the extended reals.

  At a grid point the body sees a block of 5000 rows of the aggregated features `a` and of the node features `x`
  (each 5000 x 128), the block's 5000 graph-id words, the two transposed 128 x 128 weight matrices, the
  transposed 128 x 10 readout matrix, and the two 64 x 128 accumulators.
    * The hidden feature of row `r`, channel `d`: `max (Σ_k a(r,k)·Wrel(k,d) + Σ_k x(r,k)·Wroot(k,d)) 0` (`hrow`).
    * The transposed one-hot matrix at `(g, r)`: the one-hot entry `Pool.ind` of row `r`'s id word and graph `g`
      (the iota along the graph axis reads the graph number; the id column is broadcast along it).
    * The new sums accumulator at `(g, d)`: the old one plus `Σ_r onehot(g,r) · hrow(r,d)`.
    * The new counts accumulator at `(g, d)`: the old one plus `Σ_r onehot(g,r) · 1`.
    * The readout at `(g, o)`: `Σ_d (sums(g,d) / max (counts(g,d)) 1) · Wout(d,o)`.
  Changes of float format are the identity over the extended reals, and a matrix product into a zero accumulator is
  the plain sum of products.
-/
import proofs.«407730_j60662118089064_1_alg».proof.Proof.Gen.KernelIdeal.Skeleton
import proofs.«407730_j60662118089064_1_alg».proof.Proof.PoolLaw
import proofs.«407730_j60662118089064_1_alg».proof.Proof.LibDot
import Idealize.ShloMosaic.Lib.Pipeline.Value
import Idealize.ShloMosaic.Lib.ValueIdx
import Idealize.ShloMosaic.Lib.ValueLayout
import Idealize.ShloMosaic.Lib.IdealHost

noncomputable section

open scoped BigOperators

namespace Cert.KernelIdeal.Pay

open Cert.KernelIdeal Cert.KernelIdeal.Gen Idealize.ShloMosaic Idealize.ShloMosaic.ValueIdx

/-- The hidden feature of row `r` of a block, channel `d`. -/
def hrow (a x : S5000x128.Idx → EReal) (wr wo : S128x128.Idx → EReal) (r : Fin 5000) (d : Fin 128) : EReal :=
  max ((∑ k : Fin 128, a (ix2 r k) * wr (ix2 k d)) + (∑ k : Fin 128, x (ix2 r k) * wo (ix2 k d))) 0

/-- The transposed one-hot matrix at `(g, r)` is the one-hot entry of row `r`'s id word and graph `g`. -/
theorem onehotT_apply (v20 : Vec Ideal S5000x1 .i32) (g : Fin 64) (r : Fin 5000) :
    k0_pay6 (F := Ideal) v20 (ix2 g r) = Pool.ind (v20 (ix2 r ⟨0, Nat.one_pos⟩)) g.val := by
  unfold k0_pay6
  dsimp only
  rw [transpose_ix2_apply]
  rw [truncf_apply, sitofp_apply, extui_apply]
  show Scalar.sitofp (F := Ideal) .f32 ((IntOp.cmpi .eq (broadcastTo S5000x64 (shapeCast S5000x1 v20 shapeCasts_S5000x1_S5000x1) broadcasts_S5000x1_S5000x64 (ix2 r g)) (iota .tc S5000x64 32 [1] iota_S5000x64_d1_w32 (ix2 r g))).setWidth 32) = _
  rw [iota_single_apply, shapeCast_self,
    broadcastTo_apply v20 broadcasts_S5000x1_S5000x64 (ix2 r g) (ix2 r ⟨0, Nat.one_pos⟩)
      (fun a => match a with | ⟨0, _⟩ => rfl | ⟨1, _⟩ => rfl)]
  rfl

/-- The extended-real zero and one behind the words the body splats. -/
theorem zero_word : Scalar.ofBits (F := Ideal) .f32 0x00000000#32 = (0 : EReal) := Ideal.ofBits_zero_f32
theorem one_word : Scalar.ofBits (F := Ideal) .f32 0x3F800000#32 = (1 : EReal) := Ideal.ofBits_one_f32
theorem one_word_bf16 : Scalar.ofBits (F := Ideal) .bf16 0x3F80#16 = (1 : EReal) := Ideal.ofBits_one_bf16

/-- The hidden block at `(r, d)`. -/
theorem hidden_apply (v3 v6 : Vec Ideal S5000x128 .f32) (v8 v11 : Vec Ideal S128x128 .f32) (r : Fin 5000) (d : Fin 128) :
    maximumf
        (addf
          (matmul dot_S5000x128_S128x128_S5000x128_1_0_0_1_n_n none
            (truncf .bf16 (shapeCast S5000x128 v3 shapeCasts_S5000x128_S5000x128 : FVec Ideal S5000x128 .f32) bitsLt_bf16_f32)
            (truncf .bf16 (shapeCast S128x128 v8 shapeCasts_S128x128_S128x128 : FVec Ideal S128x128 .f32) bitsLt_bf16_f32)
            (constant S5000x128 .f32 0x00000000#32))
          (matmul dot_S5000x128_S128x128_S5000x128_1_0_0_1_n_n none
            (truncf .bf16 (v6 : FVec Ideal S5000x128 .f32) bitsLt_bf16_f32)
            (truncf .bf16 (shapeCast S128x128 v11 shapeCasts_S128x128_S128x128 : FVec Ideal S128x128 .f32) bitsLt_bf16_f32)
            (constant S5000x128 .f32 0x00000000#32)))
        (broadcast S5000x128 (Scalar.ofBits (F := Ideal) .f32 0x00000000#32)) (ix2 r d)
      = hrow v3 v6 v8 v11 r d := by
  rw [maximumf_apply, addf_apply,
    Cert.LibDot.matmul_plain_apply dot_S5000x128_S128x128_S5000x128_1_0_0_1_n_n rfl rfl rfl rfl rfl rfl,
    Cert.LibDot.matmul_plain_apply dot_S5000x128_S128x128_S5000x128_1_0_0_1_n_n rfl rfl rfl rfl rfl rfl,
    broadcast_apply, zero_word, shapeCast_self, shapeCast_self, shapeCast_self]
  rfl

/-- THE SUMS STEP at `(g, d)`: the old accumulator plus the one-hot column of graph `g` against channel `d` of the
    hidden block. -/
theorem pay8_apply (v3 v6 : Vec Ideal S5000x128 .f32) (v8 v11 : Vec Ideal S128x128 .f32) (v20 : Vec Ideal S5000x1 .i32)
    (v32 : Vec Ideal S64x128 .f32) (g : Fin 64) (d : Fin 128) :
    k0_pay8 (F := Ideal) v3 v6 v8 v11 v20 v32 (ix2 g d)
      = v32 (ix2 g d) + ∑ r : Fin 5000, Pool.ind (v20 (ix2 r ⟨0, Nat.one_pos⟩)) g.val * hrow v3 v6 v8 v11 r d := by
  unfold k0_pay8
  rw [addf_apply, Cert.LibDot.matmul_plain_apply dot_S64x5000_S5000x128_S64x128_1_0_0_1_n_n rfl rfl rfl rfl rfl rfl]
  congr 1
  refine Finset.sum_congr rfl fun r _ => ?_
  rw [onehotT_apply, truncf_apply, hidden_apply]

/-- THE COUNTS STEP's addend at `(g, d)`: the one-hot column of graph `g` against a column of ones. -/
theorem pay7_apply (v20 : Vec Ideal S5000x1 .i32) (g : Fin 64) (d : Fin 128) :
    k0_pay7 (F := Ideal) v20 (ix2 g d) = ∑ r : Fin 5000, Pool.ind (v20 (ix2 r ⟨0, Nat.one_pos⟩)) g.val * 1 := by
  unfold k0_pay7
  rw [Cert.LibDot.matmul_plain_apply dot_S64x5000_S5000x128_S64x128_1_0_0_1_n_n rfl rfl rfl rfl rfl rfl]
  refine Finset.sum_congr rfl fun r _ => ?_
  rw [onehotT_apply, broadcast_apply, one_word_bf16]

/-- The two self shape-casts before the accumulator stores are the identity. -/
theorem pay1_eq (v33 : FVec Ideal S64x128 .f32) : k0_pay1 (F := Ideal) v33 = v33 := by
  unfold k0_pay1
  exact shapeCast_self v33 _

theorem pay2_apply (v31 : FVec Ideal S64x128 .f32) (v37 : Vec Ideal S64x128 .f32) (i : S64x128.Idx) :
    k0_pay2 (F := Ideal) v31 v37 i = v37 i + v31 i := by
  unfold k0_pay2
  rw [shapeCast_self, addf_apply]

/-- The resets store zero. -/
theorem pay4_apply (i : S64x128.Idx) : k0_pay4 (F := Ideal) i = 0 := by
  unfold k0_pay4
  rw [shapeCast_self, broadcast_apply, zero_word]

theorem pay5_apply (i : S64x128.Idx) : k0_pay5 (F := Ideal) i = 0 := by
  unfold k0_pay5
  rw [shapeCast_self, broadcast_apply, zero_word]

/-- THE READOUT at `(g, o)`: the per-graph mean against the readout matrix. -/
theorem pay3_apply (v45 v46 : Vec Ideal S64x128 .f32) (v51 : Vec Ideal S128x10 .f32) (g : Fin 64) (o : Fin 10) :
    k0_pay3 (F := Ideal) v45 v46 v51 (ix2 g o)
      = ∑ d : Fin 128, Ideal.div (v45 (ix2 g d)) (max (v46 (ix2 g d)) 1) * v51 (ix2 d o) := by
  unfold k0_pay3
  rw [Cert.LibDot.matmul_plain_apply dot_S64x128_S128x10_S64x10_1_0_0_1_n_n rfl rfl rfl rfl rfl rfl]
  refine Finset.sum_congr rfl fun d _ => ?_
  rw [truncf_apply, truncf_apply, shapeCast_self, divf_apply, maximumf_apply, broadcast_apply, one_word]

end Cert.KernelIdeal.Pay

end
-- ==== Proof.Spec.lean ====
/-
  The function both programs compute, over the extended reals.

  `a` is the neighbour-aggregated node feature array and `x` the node feature array (50000 x 128), `wr`, `wo` the
  two transposed 128 x 128 weight matrices, `wt` the transposed 128 x 10 readout matrix, and `id` the nodes'
  32-bit graph-id words.
    * The hidden feature of node `n`, channel `d`:  `max (Σ_k a(n,k)·wr(k,d) + Σ_k x(n,k)·wo(k,d)) 0`.
    * The segment sum of `f` for graph `g`: the sum of `f n` over the nodes whose id, read signed, is `g`
      (ids outside `[0, 64)` match no graph and are dropped).
    * The output at `(g, o)`:  `Σ_d (segsum of channel d / max (segsum of ones) 1) · wt(d,o)`:
      the mean of the hidden features of graph `g` (the count clamped below by one) against the readout matrix.
-/
import Idealize.ShloMosaic.Lib.ValueIdx
import Idealize.ShloMosaic.PureOps.Ideal.Laws

noncomputable section

open scoped BigOperators

namespace Cert.Spec

open Idealize.ShloMosaic Idealize.ShloMosaic.ValueIdx

/-- The hidden feature of node `n`, channel `d`. -/
def hnode (a x : (⟨2, ![50000, 128]⟩ : Shape).Idx → EReal) (wr wo : (⟨2, ![128, 128]⟩ : Shape).Idx → EReal)
    (n : Fin 50000) (d : Fin 128) : EReal :=
  max ((∑ k : Fin 128, a (ix2 n k) * wr (ix2 k d)) + (∑ k : Fin 128, x (ix2 n k) * wo (ix2 k d))) 0

/-- The segment sum of `f` for graph `g`. -/
def segSum (id : Fin 50000 → BitVec 32) (f : Fin 50000 → EReal) (g : Fin 64) : EReal :=
  ∑ n : Fin 50000, if (id n).toInt = (g.val : Int) then f n else 0

/-- The output entry `(g, o)`. -/
def outAt (a x : (⟨2, ![50000, 128]⟩ : Shape).Idx → EReal) (wr wo : (⟨2, ![128, 128]⟩ : Shape).Idx → EReal)
    (wt : (⟨2, ![128, 10]⟩ : Shape).Idx → EReal) (id : Fin 50000 → BitVec 32) (g : Fin 64) (o : Fin 10) : EReal :=
  ∑ d : Fin 128, Ideal.div (segSum id (fun n => hnode a x wr wo n d) g) (max (segSum id (fun _ => 1) g) 1) * wt (ix2 d o)

/-- The output array. -/
def out (a x : (⟨2, ![50000, 128]⟩ : Shape).Idx → EReal) (wr wo : (⟨2, ![128, 128]⟩ : Shape).Idx → EReal)
    (wt : (⟨2, ![128, 10]⟩ : Shape).Idx → EReal) (id : Fin 50000 → BitVec 32) : (⟨2, ![64, 10]⟩ : Shape).Idx → EReal :=
  fun i => outAt a x wr wo wt id (i 0) (i 1)

theorem out_ix2 (a x : (⟨2, ![50000, 128]⟩ : Shape).Idx → EReal) (wr wo : (⟨2, ![128, 128]⟩ : Shape).Idx → EReal)
    (wt : (⟨2, ![128, 10]⟩ : Shape).Idx → EReal) (id : Fin 50000 → BitVec 32) (g : Fin 64) (o : Fin 10) :
    out a x wr wo wt id (ix2 g o) = outAt a x wr wo wt id g o := rfl

end Cert.Spec

end
-- ==== Proof.Accum.lean ====
/-
  The two accumulators after each grid point, and after the last one.

  Number the nodes' rows `0 … 49999`; point `t` handles rows `t·5000 + r`, `r < 5000`. By induction over the points,
  after point `n` the sums accumulator holds at `(g, d)`
      Σ_{t ≤ n} Σ_{r < 5000} onehot(row t·5000 + r, g) · hidden(row t·5000 + r, d)
  and the counts accumulator the same sum with `1` for the hidden feature: the first point starts from the stored
  zeros, every later point adds its block's term to what the point before left. After the last point (`n = 9`) the
  ten blocks are all 50000 rows, and the one-hot products are the segment sums (the pooling law).
-/
import proofs.«407730_j60662118089064_1_alg».proof.Proof.Blocks
import proofs.«407730_j60662118089064_1_alg».proof.Proof.Payload
import proofs.«407730_j60662118089064_1_alg».proof.Proof.PoolLaw
import proofs.«407730_j60662118089064_1_alg».proof.Proof.Spec

noncomputable section

open scoped BigOperators

namespace Cert.KernelIdeal.Accum

open Cert.KernelIdeal Cert.KernelIdeal.Gen Cert.KernelIdeal.Blocks Idealize.ShloMosaic Idealize.ShloMosaic.TcCoe Idealize.ShloMosaic.ValueIdx
open Idealize.SL Idealize.SL.Sem

variable (m : (ℓ : Loc nD τ sig) → Buf (Elt Ideal) ℓ)

/-! ## Rows by number -/

/-- The graph-id word of row `n` (zero past the array). -/
def idN (c : Dev nD) (n : ℕ) : BitVec 32 :=
  if h : n < 50000 then arrId m c (ix2 ⟨n, h⟩ ⟨0, Nat.one_pos⟩) else 0#32

/-- The hidden feature of row `n`, channel `d` (zero past the array). -/
def hN (c : Dev nD) (n : ℕ) (d : Fin 128) : EReal :=
  if h : n < 50000 then Spec.hnode (arrAgg m c) (arrX m c) (arrWr m c) (arrWo m c) ⟨n, h⟩ d else 0

/-- Row `r` of point `t`'s id block is row `t·5000 + r`. -/
theorem id_blk (c : Dev nD) (t : Fin cfg0.N) (r : Fin 5000) :
    blkId m c t (ix2 r ⟨0, Nat.one_pos⟩) = idN m c (t.val * 5000 + r.val) := by
  unfold idN
  rw [dif_pos (row_lt t r)]
  exact blkId_apply m c t r

/-- The hidden feature of row `r` of point `t`'s blocks is that of row `t·5000 + r`. -/
theorem hrow_blk (c : Dev nD) (t : Fin cfg0.N) (r : Fin 5000) (d : Fin 128) :
    Pay.hrow (blkAgg m c t) (blkX m c t) (blkWr m c t) (blkWo m c t) r d = hN m c (t.val * 5000 + r.val) d := by
  unfold hN
  rw [dif_pos (row_lt t r)]
  unfold Pay.hrow Spec.hnode
  have e1 : ∑ k : Fin 128, blkAgg m c t (ix2 r k) * blkWr m c t (ix2 k d)
      = ∑ k : Fin 128, arrAgg m c (ix2 ⟨t.val * 5000 + r.val, row_lt t r⟩ k) * arrWr m c (ix2 k d) :=
    Finset.sum_congr rfl fun k _ => by rw [blkAgg_apply, blkWr_apply]
  have e2 : ∑ k : Fin 128, blkX m c t (ix2 r k) * blkWo m c t (ix2 k d)
      = ∑ k : Fin 128, arrX m c (ix2 ⟨t.val * 5000 + r.val, row_lt t r⟩ k) * arrWo m c (ix2 k d) :=
    Finset.sum_congr rfl fun k _ => by rw [blkX_apply, blkWo_apply]
  rw [e1, e2]

/-! ## The partial sums -/

/-- The sums accumulator's value after point `n`. -/
def partS (c : Dev nD) (n : ℕ) (g : Fin 64) (d : Fin 128) : EReal :=
  ∑ t ∈ Finset.range (n + 1), ∑ r : Fin 5000, Pool.ind (idN m c (t * 5000 + r.val)) g.val * hN m c (t * 5000 + r.val) d

/-- The counts accumulator's value after point `n`. -/
def partC (c : Dev nD) (n : ℕ) (g : Fin 64) : EReal :=
  ∑ t ∈ Finset.range (n + 1), ∑ r : Fin 5000, Pool.ind (idN m c (t * 5000 + r.val)) g.val * 1

theorem lt_ten {n : ℕ} (hn : n < cfg0.N) : n < 10 := lt_of_lt_of_eq hn N_0

/-- THE SUMS ACCUMULATOR after point `n`. -/
theorem sums_value (c : Dev nD) : ∀ (n : ℕ) (hn : n < cfg0.N) (g : Fin 64) (d : Fin 128),
    sumsAt m c n hn (ix2 g d) = partS m c n g d
  | 0, hn, g, d => by
    have e := sums_first m c ⟨0, hn⟩ (Nat.zero_mod 10) (by show ¬ 0 % 10 = 9; decide)
    rw [show sumsAt m c 0 hn = _ from e, Pay.pay1_eq, Pay.pay8_apply, Pay.pay4_apply, zero_add]
    unfold partS
    rw [Finset.sum_range_one]
    refine Finset.sum_congr rfl fun r _ => ?_
    rw [id_blk, hrow_blk]
  | n + 1, hn, g, d => by
    have h10 := lt_ten hn
    have e := sums_step m c ⟨n + 1, hn⟩ (by show ¬ (n + 1) % 10 = 0; omega)
    rw [show sumsAt m c (n + 1) hn = _ from e, Pay.pay1_eq, Pay.pay8_apply]
    unfold partS
    rw [Finset.sum_range_succ _ (n + 1)]
    refine congrArg₂ (· + ·) ?_ ?_
    · exact sums_value c n (Nat.lt_of_succ_lt hn) g d
    · refine Finset.sum_congr rfl fun r _ => ?_
      rw [id_blk, hrow_blk]

/-- THE COUNTS ACCUMULATOR after point `n` (every channel `d` holds the same count). -/
theorem cnts_value (c : Dev nD) : ∀ (n : ℕ) (hn : n < cfg0.N) (g : Fin 64) (d : Fin 128),
    cntsAt m c n hn (ix2 g d) = partC m c n g
  | 0, hn, g, d => by
    have e := cnts_first m c ⟨0, hn⟩ (Nat.zero_mod 10) (by show ¬ 0 % 10 = 9; decide)
    rw [show cntsAt m c 0 hn = _ from e, Pay.pay2_apply, Pay.pay5_apply, zero_add, Pay.pay7_apply]
    unfold partC
    rw [Finset.sum_range_one]
    refine Finset.sum_congr rfl fun r _ => ?_
    rw [id_blk]
  | n + 1, hn, g, d => by
    have h10 := lt_ten hn
    have e := cnts_step m c ⟨n + 1, hn⟩ (by show ¬ (n + 1) % 10 = 0; omega)
    rw [show cntsAt m c (n + 1) hn = _ from e, Pay.pay2_apply, Pay.pay7_apply]
    unfold partC
    rw [Finset.sum_range_succ _ (n + 1)]
    refine congrArg₂ (· + ·) ?_ ?_
    · exact cnts_value c n (Nat.lt_of_succ_lt hn) g d
    · refine Finset.sum_congr rfl fun r _ => ?_
      rw [id_blk]

/-! ## After the last point: the segment sums -/

/-- The nodes' graph-id words. -/
def ids (c : Dev nD) : Fin 50000 → BitVec 32 := fun n => arrId m c (ix2 n ⟨0, Nat.one_pos⟩)

theorem idN_val (c : Dev nD) (n : Fin 50000) : idN m c n.val = ids m c n := by
  unfold idN ids
  rw [dif_pos n.isLt]

theorem hN_val (c : Dev nD) (n : Fin 50000) (d : Fin 128) :
    hN m c n.val d = Spec.hnode (arrAgg m c) (arrX m c) (arrWr m c) (arrWo m c) n d := by
  unfold hN
  rw [dif_pos n.isLt]

/-- All ten blocks: the sums accumulator ends at the segment sum of the hidden features. -/
theorem partS_last (c : Dev nD) (g : Fin 64) (d : Fin 128) :
    partS m c 9 g d
      = Spec.segSum (ids m c) (fun n => Spec.hnode (arrAgg m c) (arrX m c) (arrWr m c) (arrWo m c) n d) g := by
  unfold partS Spec.segSum
  rw [Pool.pooled (idN m c) (fun k => hN m c k d) g.val g.isLt]
  refine Finset.sum_congr rfl fun n _ => ?_
  rw [idN_val, hN_val]

/-- All ten blocks: the counts accumulator ends at the segment sum of ones. -/
theorem partC_last (c : Dev nD) (g : Fin 64) :
    partC m c 9 g = Spec.segSum (ids m c) (fun _ => 1) g := by
  unfold partC Spec.segSum
  rw [Pool.pooled (idN m c) (fun _ => 1) g.val g.isLt]
  refine Finset.sum_congr rfl fun n _ => ?_
  rw [idN_val]

end Cert.KernelIdeal.Accum

end
-- ==== Proof.Final.lean ====
/-
  The kernel's output array after the run.

  The output window's block index is `(0, 0)` at every point: the block is the whole 64 x 10 array, and only the
  last point writes it back. There the body divides the sums accumulator by the counts accumulator clamped
  below by one and multiplies by the readout matrix; with the accumulators' values after the last point (the
  segment sums), entry `(g, o)` is the specification's. One flushed block covering the array, the array ends at
  the specification of the arrays the region found.
-/
import proofs.«407730_j60662118089064_1_alg».proof.Proof.Accum
import proofs.«407730_j60662118089064_1_alg».proof.Proof.Gen.KernelIdeal.Value
import Idealize.ShloMosaic.Lib.Pipeline.Value

set_option maxRecDepth 16384

noncomputable section

open scoped BigOperators

namespace Cert.KernelIdeal.Final

open Cert.KernelIdeal Cert.KernelIdeal.Gen Cert.KernelIdeal.Blocks Cert.KernelIdeal.Accum
open Idealize.ShloMosaic Idealize.ShloMosaic.TcCoe Idealize.ShloMosaic.ValueIdx Idealize.SL Idealize.SL.Sem
open Idealize.ShloMosaic.Pipeline (Dat)

variable (m : (ℓ : Loc nD τ sig) → Buf (Elt Ideal) ℓ) (ρ : Dev nD → PrngReg)

/-- The specification at the arrays the region finds. -/
def outArr (c : Dev nD) : S64x10.Idx → EReal :=
  Spec.out (arrAgg m c) (arrX m c) (arrWr m c) (arrWo m c) (arrWt m c) (ids m c)

/-- The output block the last point leaves, entry by entry. -/
theorem outBlock_value (c : Dev nD) (t : Fin cfg0.N) (h9 : t.val % 10 = 9) (g : Fin 64) (o : Fin 10) :
    (outsAt0 m c t.val t.isLt).1 (ix2 g o) = outArr m c (ix2 g o) := by
  obtain ⟨n, hn⟩ := t
  have h10 := lt_ten hn
  have h9' : n % 10 = 9 := h9
  have hn9 : n = 9 := by omega
  subst hn9
  rw [out_last m c ⟨9, hn⟩ (by show ¬ 9 % 10 = 0; decide) h9, Pay.pay3_apply]
  unfold outArr
  rw [Spec.out_ix2]
  unfold Spec.outAt
  refine Finset.sum_congr rfl fun d _ => ?_
  rw [blkWt_apply, sums_value m c 9 hn g d, cnts_value m c 9 hn g d, partS_last, partC_last]

/-- The clipped block index of an unclipped block is the index. -/
theorem xinj_out (t : Fin cfg0.N) (g : Fin 64) (o : Fin 10) :
    (cfg0.win 6).xinj (grid0.coords t) (ix2 g o) = ix2 g o := rfl

/-- WHAT THE FLUSHING POINT WRITES BACK is the block of the specification. -/
theorem flushed_eq (c : Dev nD) (t : Fin cfg0.N) (hf : (cfg0.win 6).flush t = true) :
    (dats m 0 c).flushed 6 t = ((cfg0.win 6).blk t).view.read (Elt Ideal) (outArr m c) := by
  have h9 := (flush0_6 t).mp hf
  rw [Value.flushed6]
  funext j
  obtain ⟨g, o, rfl⟩ : ∃ (g : Fin 64) (o : Fin 10), j = ix2 g o := ⟨j 0, j 1, eq_ix2 j⟩
  rw [read_out (outArr m c) t g o]
  show (outsAt0 m c t.val t.isLt).1 ((cfg0.win 6).xinj (grid0.coords t) (ix2 g o)) = _
  rw [xinj_out]
  exact outBlock_value m c t h9 g o

/-- An index of the array is in point `t`'s block iff each coordinate is in the block's range on its axis. -/
theorem mem_blk (t : Fin cfg0.N) (i : S64x10.Idx) :
    i ∈ ((cfg0.win 6).blk t).view.set ↔ ∀ a : Fin 2, win0_6.index t a * S64x10.size a ≤ (i a).val ∧ (i a).val < win0_6.index t a * S64x10.size a + S64x10.size a := by
  show i ∈ ((View.whole main_v18).slice (win0_6.rect t)).set ↔ _
  rw [View.set_slice_whole, Rect.mem_set_unit]
  exact Iff.rfl

/-- The last point's block is the whole array. -/
theorem cover (i : S64x10.Idx) : ∃ t : Fin cfg0.N, (cfg0.win 6).flush t = true ∧ i ∈ ((cfg0.win 6).blk t).view.set := by
  have h9 : 9 < cfg0.N := by rw [show cfg0.N = 10 from N_0]; decide
  refine ⟨⟨9, h9⟩, (flush0_6 ⟨9, h9⟩).mpr rfl, ?_⟩
  rw [mem_blk]
  obtain ⟨-, -, -, -, -, -, -, -, -, -, -, -, e0, e1⟩ := idx_facts ⟨9, h9⟩
  intro a
  match a with
  | ⟨0, _⟩ =>
    show win0_6.index ⟨9, h9⟩ (0 : Fin 2) * 64 ≤ (i 0).val ∧ (i 0).val < win0_6.index ⟨9, h9⟩ (0 : Fin 2) * 64 + 64
    have hi : (i 0).val < 64 := (i 0).isLt
    omega
  | ⟨1, _⟩ =>
    show win0_6.index ⟨9, h9⟩ (1 : Fin 2) * 10 ≤ (i 1).val ∧ (i 1).val < win0_6.index ⟨9, h9⟩ (1 : Fin 2) * 10 + 10
    have hi : (i 1).val < 10 := (i 1).isLt
    omega

/-- THE ARRAY after the run. -/
theorem final (c : Dev nD) : (dats m 0 c).arrAt 6 cfg0.N = outArr m c :=
  (dats m 0 c).arrAt_eq_of_cover 6 (outArr m c) (fun t hf => flushed_eq m c t hf) cover

/-- The kernel's run, re-posted: the result array at the specification of the arrays the region finds, the arguments
    unchanged. -/
theorem run : θ_run defs (onTc (τ := τ) (main (F := Ideal))) ⟨m, fun _ => 0, ρ⟩ fun r => ∀ c : Dev nD,
      r.2.mem ((c : Thread nD τ).loc main_v18) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Final

end
-- ==== Proof.LibScatterRows.lean ====
/-
  Scatter-adds along the FIRST axis of the operand, and a gather of single elements of a vector, read at an index.

  ROWS. What `operand.at[idx].add(updates)` (a segment sum) lowers to for an operand `[N, C]`, a vector of `K` row indices
  and updates `[K, C]`: `stablehlo.scatter` with an `add` body and the dimension numbers update_window_dims `[1]`,
  inserted_window_dims `[0]`, scatter_dims_to_operand_dims `[0]`, index_vector_dim `1` over the indices as `[K, 1]`.
  Update element `(k, c)` lands at operand element `(idx[k, 0], c)`, the index read as a SIGNED integer and not
  clamped: an update whose row index is outside `[0, N)` is dropped. So the result at `(n, c)` is the operand there
  plus the sum of the updates `(k, c)` over the `k` whose index is `n` (`scatterAdd_rows_apply`).

  VECTOR. The same for an operand `[N]` and updates `[K]` (no window axis: update_window_dims `[]`): the result at
  `n` is the operand there plus the sum of the updates `k` whose index is `n` (`scatterAdd_vec_apply`).

  GATHER. `table[ids]` over a vector table `[N]` at start indices `[R, 1]`: the one operand axis is collapsed and
  start-indexed, there is no offset axis, and result element `r` is the table's at `idx[r, 0]` read as a signed
  integer and CLAMPED into `[0, N − 1]` (`gather_vec`).

  All three are stated for an ARBITRARY record of dimension numbers whose lists are the ones above (each hypothesis
  holds by `rfl` on a written record), every extent a variable. `rowsDims` / `vecDims` are the two scatter records
  with their conditions as a variable; `start_*` / `window_*` compute the window's start and the window coordinate
  on the operand's axes; `resultIdx?_rows` / `resultIdx?_vec` say where an update lands.
-/
import Idealize.ShloMosaic.Lib.ValueIdx

noncomputable section

open scoped BigOperators

namespace Cert.LibScatterRows

open Idealize.ShloMosaic Idealize.ShloMosaic.ValueIdx

/-! ## The row scatter-add -/

/-- The dimension numbers of a row scatter for an operand `[N, C]`, scatter indices `[K, 1]` and updates `[K, C]`,
    over any evidence `wf` of their conditions. -/
abbrev rowsDims (N C K : Nat) (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ where
  updateWindowDims := [1]
  insertedWindowDims := [0]
  scatterDimsToOperandDims := [0]
  indexVectorDim := 1
  wf := wf

section Rows

variable {N C K w : Nat} (wf : ScatterDims.WF ⟨2, ![N, C]⟩ ⟨2, ![K, 1]⟩ ⟨2, ![K, C]⟩ [1] [0] [0] 1)

/-- On the row axis the window of update `(k, e)` starts at the `k`-th scatter index, read signed. -/
theorem start_row (idx : IVec ⟨2, ![K, 1]⟩ w) (k : Fin K) (e : Fin C) :
    (rowsDims N C K wf).start (ix2 k e) idx 0 = (idx (ix2 k ⟨0, Nat.one_pos⟩)).toInt := by
  unfold ScatterDims.start
  rw [dif_pos (show (0 : Fin 2) ∈ (rowsDims N C K wf).scatterDimsToOperandDims from List.mem_singleton.mpr rfl)]
  congr 2
  funext b; refine Fin.ext ?_
  match b with
  | ⟨0, _⟩ => rfl
  | ⟨1, _⟩ => rfl

/-- The column axis is not a scattered axis: the window starts at column 0. -/
theorem start_col (idx : IVec ⟨2, ![K, 1]⟩ w) (j : (⟨2, ![K, C]⟩ : Shape).Idx) :
    (rowsDims N C K wf).start j idx 1 = 0 := by
  unfold ScatterDims.start
  rw [dif_neg (show ¬ (1 : Fin 2) ∈ ([0] : List (Fin 2)) from by decide)]

/-- The row axis is inserted: its window coordinate is 0. -/
theorem window_row (j : (⟨2, ![K, C]⟩ : Shape).Idx) : (rowsDims N C K wf).window j 0 = 0 := by
  unfold ScatterDims.window
  have h : ¬ (0 : Fin 2) ∈ (rowsDims N C K wf).sKept := by
    show ¬ (0 : Fin 2) ∈ (List.finRange 2).filter (· ∉ ([0] : List (Fin 2)))
    decide
  rw [dif_neg h]

/-- The column axis is the updates' one window axis: the window coordinate of update `(k, e)` is `e`. -/
theorem window_col (k : Fin K) (e : Fin C) : (rowsDims N C K wf).window (ix2 k e) 1 = e.val := by
  unfold ScatterDims.window
  have h : (1 : Fin 2) ∈ (rowsDims N C K wf).sKept := by
    show (1 : Fin 2) ∈ (List.finRange 2).filter (· ∉ ([0] : List (Fin 2)))
    decide
  rw [dif_pos h]
  rfl

/-- WHERE AN UPDATE LANDS: update `(k, e)` lands at `(n, c)` exactly when the `k`-th scatter index, read signed, is
    `n` and `e = c`. -/
theorem resultIdx?_rows (idx : IVec ⟨2, ![K, 1]⟩ w) (k : Fin K) (e : Fin C) (n : Fin N) (c : Fin C) :
    (rowsDims N C K wf).resultIdx? (ix2 k e) idx = some (ix2 n c) ↔
      (idx (ix2 k ⟨0, Nat.one_pos⟩)).toInt = (n.val : Int) ∧ e = c := by
  have he : e.val < C := e.isLt
  have hn : n.val < N := n.isLt
  unfold ScatterDims.resultIdx?
  constructor
  · intro h
    split at h
    · rename_i hh
      have hf := Option.some.inj h
      have h0 := congrArg Fin.val (congrFun hf 0)
      have h1 := congrArg Fin.val (congrFun hf 1)
      have hh0 := (hh 0).1
      simp only [start_row, start_col, window_row, window_col] at h0 h1 hh0
      refine ⟨?_, Fin.ext ?_⟩
      · change ((idx (ix2 k ⟨0, Nat.one_pos⟩)).toInt + ((0 : Nat) : Int)).toNat = n.val at h0
        omega
      · change (0 + (e.val : Int)).toNat = c.val at h1
        omega
    · exact absurd h (by simp)
  · rintro ⟨hi, rfl⟩
    have hall : ∀ a : Fin 2, 0 ≤ (rowsDims N C K wf).start (ix2 k e) idx a + ((rowsDims N C K wf).window (ix2 k e) a : Int) ∧
        (rowsDims N C K wf).start (ix2 k e) idx a + ((rowsDims N C K wf).window (ix2 k e) a : Int)
          < ((⟨2, ![N, C]⟩ : Shape).size a : Int) := by
      intro a
      match a with
      | ⟨0, _⟩ =>
        rw [show (⟨0, by omega⟩ : Fin 2) = 0 from rfl, start_row, window_row, hi]
        change 0 ≤ (n.val : Int) + ((0 : Nat) : Int) ∧ (n.val : Int) + ((0 : Nat) : Int) < (N : Int)
        omega
      | ⟨1, _⟩ =>
        rw [show (⟨1, by omega⟩ : Fin 2) = 1 from rfl, start_col, window_col]
        change 0 ≤ 0 + (e.val : Int) ∧ 0 + (e.val : Int) < (C : Int)
        omega
    rw [dif_pos hall]
    congr 1
    funext a; refine Fin.ext ?_
    match a with
    | ⟨0, _⟩ =>
      show ((rowsDims N C K wf).start (ix2 k e) idx 0 + ((rowsDims N C K wf).window (ix2 k e) 0 : Int)).toNat = n.val
      rw [start_row, window_row, hi]; omega
    | ⟨1, _⟩ =>
      show ((rowsDims N C K wf).start (ix2 k e) idx 1 + ((rowsDims N C K wf).window (ix2 k e) 1 : Int)).toNat = e.val
      rw [start_col, window_col]; omega

/-- The row scatter-add over the written record, read at `(n, c)`. -/
theorem scatterAdd_rowsDims_apply (x : (⟨2, ![N, C]⟩ : Shape).Idx → EReal) (idx : IVec ⟨2, ![K, 1]⟩ w)
    (upd : (⟨2, ![K, C]⟩ : Shape).Idx → EReal) (n : Fin N) (c : Fin C) :
    Ideal.hostScatterAdd (rowsDims N C K wf) x idx upd (ix2 n c) =
      x (ix2 n c) + ∑ k : Fin K, if (idx (ix2 k ⟨0, Nat.one_pos⟩)).toInt = (n.val : Int) then upd (ix2 k c) else 0 := by
  unfold Ideal.hostScatterAdd
  congr 1
  rw [Finset.sum_filter, sum_idx2]
  refine Finset.sum_congr rfl fun k _ => ?_
  -- of the updates of row `k` only the one in column `c` can land in column `c`
  rw [Finset.sum_eq_single c]
  · by_cases h : (idx (ix2 k ⟨0, Nat.one_pos⟩)).toInt = (n.val : Int)
    · rw [if_pos h, if_pos ((resultIdx?_rows wf idx k c n c).mpr ⟨h, rfl⟩)]
    · rw [if_neg h, if_neg (fun h' => h ((resultIdx?_rows wf idx k c n c).mp h').1)]
  · intro e _ hec
    rw [if_neg (fun h' => hec ((resultIdx?_rows wf idx k e n c).mp h').2)]
  · intro h; exact absurd (Finset.mem_univ c) h

end Rows

/-- THE ROW SCATTER-ADD READ AT `(n, c)`: the operand there plus the updates of column `c` whose scatter index is `n`. -/
theorem scatterAdd_rows_apply {N C K w : Nat}
    (d : ScatterDims ⟨2, ![N, C]⟩ ⟨2, ![K, 1]⟩ ⟨2, ![K, C]⟩)
    (huw : d.updateWindowDims = [1]) (hiw : d.insertedWindowDims = [0])
    (hsd : d.scatterDimsToOperandDims = [0]) (hiv : d.indexVectorDim = 1)
    (x : (⟨2, ![N, C]⟩ : Shape).Idx → EReal) (idx : IVec ⟨2, ![K, 1]⟩ w)
    (upd : (⟨2, ![K, C]⟩ : Shape).Idx → EReal) (n : Fin N) (c : Fin C) :
    Ideal.hostScatterAdd d x idx upd (ix2 n c) =
      x (ix2 n c) + ∑ k : Fin K, if (idx (ix2 k ⟨0, Nat.one_pos⟩)).toInt = (n.val : Int) then upd (ix2 k c) else 0 := by
  obtain ⟨uw, iw, sd, iv, wf⟩ := d
  dsimp only at huw hiw hsd hiv
  subst huw hiw hsd hiv
  exact scatterAdd_rowsDims_apply wf x idx upd n c

/-! ## The vector scatter-add -/

/-- The dimension numbers of a scatter into a vector: operand `[N]`, scatter indices `[K, 1]`, updates `[K]`, over any
    evidence `wf` of their conditions. -/
abbrev vecDims (N K : Nat) (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Vec

variable {N K w : Nat} (wf : ScatterDims.WF ⟨1, ![N]⟩ ⟨2, ![K, 1]⟩ ⟨1, ![K]⟩ [] [0] [0] 1)

/-- The window of update `k` starts at the `k`-th scatter index, read signed. -/
theorem start_vec (idx : IVec ⟨2, ![K, 1]⟩ w) (k : Fin K) :
    (vecDims N K wf).start (ix1 k) idx 0 = (idx (ix2 k ⟨0, Nat.one_pos⟩)).toInt := by
  unfold ScatterDims.start
  rw [dif_pos (show (0 : Fin 1) ∈ (vecDims N K wf).scatterDimsToOperandDims from List.mem_singleton.mpr rfl)]
  congr 2
  funext b; refine Fin.ext ?_
  match b with
  | ⟨0, _⟩ => rfl
  | ⟨1, _⟩ => rfl

/-- The operand's one axis is inserted: its window coordinate is 0. -/
theorem window_vec (j : (⟨1, ![K]⟩ : Shape).Idx) : (vecDims N K wf).window j 0 = 0 := by
  unfold ScatterDims.window
  have h : ¬ (0 : Fin 1) ∈ (vecDims N K wf).sKept := by
    show ¬ (0 : Fin 1) ∈ (List.finRange 1).filter (· ∉ ([0] : List (Fin 1)))
    decide
  rw [dif_neg h]

/-- WHERE AN UPDATE LANDS: update `k` lands at `n` exactly when the `k`-th scatter index, read signed, is `n`. -/
theorem resultIdx?_vec (idx : IVec ⟨2, ![K, 1]⟩ w) (k : Fin K) (n : Fin N) :
    (vecDims N K wf).resultIdx? (ix1 k) idx = some (ix1 n) ↔
      (idx (ix2 k ⟨0, Nat.one_pos⟩)).toInt = (n.val : Int) := by
  have hn : n.val < N := n.isLt
  unfold ScatterDims.resultIdx?
  constructor
  · intro h
    split at h
    · have hf := Option.some.inj h
      have h0 := congrArg Fin.val (congrFun hf 0)
      simp only [start_vec, window_vec] at h0
      change ((idx (ix2 k ⟨0, Nat.one_pos⟩)).toInt + ((0 : Nat) : Int)).toNat = n.val at h0
      rename_i hh
      have hh0 := (hh 0).1
      simp only [start_vec, window_vec] at hh0
      omega
    · exact absurd h (by simp)
  · intro hi
    have hall : ∀ a : Fin 1, 0 ≤ (vecDims N K wf).start (ix1 k) idx a + ((vecDims N K wf).window (ix1 k) a : Int) ∧
        (vecDims N K wf).start (ix1 k) idx a + ((vecDims N K wf).window (ix1 k) a : Int)
          < ((⟨1, ![N]⟩ : Shape).size a : Int) := by
      intro a
      match a with
      | ⟨0, _⟩ =>
        rw [show (⟨0, by omega⟩ : Fin 1) = 0 from rfl, start_vec, window_vec, hi]
        change 0 ≤ (n.val : Int) + ((0 : Nat) : Int) ∧ (n.val : Int) + ((0 : Nat) : Int) < (N : Int)
        omega
    rw [dif_pos hall]
    congr 1
    funext a; refine Fin.ext ?_
    match a with
    | ⟨0, _⟩ =>
      show ((vecDims N K wf).start (ix1 k) idx 0 + ((vecDims N K wf).window (ix1 k) 0 : Int)).toNat = n.val
      rw [start_vec, window_vec, hi]; omega

/-- The vector scatter-add over the written record, read at `n`. -/
theorem scatterAdd_vecDims_apply (x : (⟨1, ![N]⟩ : Shape).Idx → EReal) (idx : IVec ⟨2, ![K, 1]⟩ w)
    (upd : (⟨1, ![K]⟩ : Shape).Idx → EReal) (n : Fin N) :
    Ideal.hostScatterAdd (vecDims N K wf) x idx upd (ix1 n) =
      x (ix1 n) + ∑ k : Fin K, if (idx (ix2 k ⟨0, Nat.one_pos⟩)).toInt = (n.val : Int) then upd (ix1 k) else 0 := by
  unfold Ideal.hostScatterAdd
  congr 1
  rw [Finset.sum_filter, sum_idx1]
  refine Finset.sum_congr rfl fun k _ => ?_
  by_cases h : (idx (ix2 k ⟨0, Nat.one_pos⟩)).toInt = (n.val : Int)
  · rw [if_pos h, if_pos ((resultIdx?_vec wf idx k n).mpr h)]
  · rw [if_neg h, if_neg (fun h' => h ((resultIdx?_vec wf idx k n).mp h'))]

end Vec

/-- THE VECTOR SCATTER-ADD READ AT `n`: the operand there plus the updates whose scatter index is `n`. -/
theorem scatterAdd_vec_apply {N K w : Nat}
    (d : ScatterDims ⟨1, ![N]⟩ ⟨2, ![K, 1]⟩ ⟨1, ![K]⟩)
    (huw : d.updateWindowDims = []) (hiw : d.insertedWindowDims = [0])
    (hsd : d.scatterDimsToOperandDims = [0]) (hiv : d.indexVectorDim = 1)
    (x : (⟨1, ![N]⟩ : Shape).Idx → EReal) (idx : IVec ⟨2, ![K, 1]⟩ w)
    (upd : (⟨1, ![K]⟩ : Shape).Idx → EReal) (n : Fin N) :
    Ideal.hostScatterAdd d x idx upd (ix1 n) =
      x (ix1 n) + ∑ k : Fin K, if (idx (ix2 k ⟨0, Nat.one_pos⟩)).toInt = (n.val : Int) then upd (ix1 k) else 0 := by
  obtain ⟨uw, iw, sd, iv, wf⟩ := d
  dsimp only at huw hiw hsd hiv
  subst huw hiw hsd hiv
  exact scatterAdd_vecDims_apply wf x idx upd n

/-! ## The gather of single elements of a vector -/

/-- The element of a table of `N` entries a start index selects: the index as a signed integer, clamped into
    `[0, N − 1]`. -/
def clampVec (N : Nat) (hN : 0 < N) {w : Nat} (v : BitVec w) : Fin N := ⟨min v.toInt.toNat (N - 1), by omega⟩

theorem clampVec_val (N : Nat) (hN : 0 < N) {w : Nat} (v : BitVec w) :
    (clampVec N hN v).val = min v.toInt.toNat (N - 1) := rfl

/-- Start indices `[R, 1]`, result `[R]`: element `b` is the table's at the entry `idx[b, 0]` selects. -/
theorem gather_vec {α : Type} {N R w : Nat} (hN : 0 < N)
    (d : GatherDims ⟨1, ![N]⟩ ⟨2, ![R, 1]⟩ ⟨1, ![R]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![R, 1]⟩ w) (b : Fin R) :
    Host.gather d x idx (ix1 b) = x (ix1 (clampVec N hN (idx (ix2 b ⟨0, Nat.one_pos⟩)))) := by
  have hsl : d.sliceSizes 0 = 1 := d.slice_collapsed 0 (by rw [hcoll]; exact List.mem_singleton.mpr rfl)
  obtain ⟨od, cd, ob, sb, sm, iv, ss, wf⟩ := d
  dsimp only at hoff hcoll hob hsim hivd hsl
  subst hoff hcoll hob hsim hivd
  unfold Host.gather
  congr 1
  funext a
  refine Fin.ext ?_
  match a with
  | ⟨0, _⟩ =>
    -- the one operand axis: collapsed and start-indexed, so the coordinate is the clamped start alone
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    show min (idx _).toInt.toNat (N - ss 0) = min (idx (ix2 b ⟨0, Nat.one_pos⟩)).toInt.toNat (N - 1)
    rw [hsl]
    -- the start index is read at the result's one batch coordinate, component 0
    refine congrArg (fun v => min (idx v).toInt.toNat (N - 1)) ?_
    funext q
    refine Fin.ext ?_
    match q with
    | ⟨0, _⟩ => rfl
    | ⟨1, _⟩ => rfl

end Cert.LibScatterRows

end
-- ==== Proof.RefValue.lean ====
/-
  The reference's result, read at an index over the extended reals.

  The reference computes the hidden features of all 50000 nodes with two whole matrix products and a maximum with
  zero; pools them by graph id with a row scatter-add into a zero 64 x 128 array, and counts each graph's nodes
  with a scatter-add of ones into a zero vector; divides the sums by the counts clamped below by one (the count
  vector broadcast along the channels); and multiplies by the transposed readout matrix. A scatter-add into
  zeros, read at `(g, d)`, is the sum of the updates whose index word, read signed, is `g`: the segment sum.
  So entry `(g, o)` of the result is the specification's, over the aggregated feature array the reference's own
  gather and scatter-add produce (kept folded here) and the transposed weights.
-/
import proofs.«407730_j60662118089064_1_alg».proof.Proof.Gen.ReferenceIdeal.Read
import proofs.«407730_j60662118089064_1_alg».proof.Proof.Spec
import proofs.«407730_j60662118089064_1_alg».proof.Proof.LibDot
import proofs.«407730_j60662118089064_1_alg».proof.Proof.LibScatterRows
import Idealize.ShloMosaic.Lib.ValueIdx
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx

/-- The nodes' graph-id words. -/
def ids (x2 : (⟨S50000, .i32⟩ : BufTy).Contents (Elt Ideal)) : Fin 50000 → BitVec 32 := fun n => x2 (ix1 n)

theorem idx21 (n : Fin 50000) : idx_main_v21 (ix2 n ⟨0, Nat.one_pos⟩) = ix1 n :=
  funext fun a => Fin.ext (by match a with | ⟨0, _⟩ => rfl)

theorem idx25 (n : Fin 50000) : idx_main_v25 (ix2 n ⟨0, Nat.one_pos⟩) = ix1 n :=
  funext fun a => Fin.ext (by match a with | ⟨0, _⟩ => rfl)

/-- A whole matrix product of any 50000 x 128 array with a 128 x 128 one, at `(n, d)`. -/
theorem dot_apply (A : FVec Ideal S50000x128 .f32) (W : FVec Ideal S128x128 .f32) (n : Fin 50000) (d : Fin 128) :
    Host.dotGeneral dot_S50000x128_S128x128_S50000x128_1_0_0_1_n_n none A W (ix2 n d) = ∑ k : Fin 128, A (ix2 n k) * W (ix2 k d) :=
  Cert.LibDot.dotGeneral_plain_apply dot_S50000x128_S128x128_S50000x128_1_0_0_1_n_n rfl rfl rfl rfl rfl rfl none A W n d

/-- THE HIDDEN FEATURE of node `n`, channel `d`. -/
theorem hidden_apply (x0 : (⟨S50000x128, .f32⟩ : BufTy).Contents (Elt Ideal)) (x1 : (⟨S2x800000, .i32⟩ : BufTy).Contents (Elt Ideal)) (x3 x4 : (⟨S128x128, .f32⟩ : BufTy).Contents (Elt Ideal)) (n : Fin 50000) (d : Fin 128) :
    val_main_v19 (F := Ideal) x0 x1 x3 x4 (ix2 n d)
      = Spec.hnode (val_main_v13 (F := Ideal) x0 x1) x0 (val_main_v14 (F := Ideal) x3) (val_main_v16 (F := Ideal) x4) n d := by
  rw [val_main_v19_apply, val_main_v18_apply, val_main_call0_v0_apply, val_main_call0_cst_apply]
  unfold val_main_v15 val_main_v17 Spec.hnode
  generalize val_main_v13 (F := Ideal) x0 x1 = A
  rw [dot_apply, dot_apply, Ideal.maximumf_def, Ideal.addf_def, Ideal.ofBits_def, Ideal.ofBits_zero_f32]

/-- THE POOLED SUMS at `(g, d)`: the segment sum of channel `d` of the hidden features. -/
theorem sums_apply (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 x4 : (⟨S128x128, .f32⟩ : BufTy).Contents (Elt Ideal)) (g : Fin 64) (d : Fin 128) :
    val_main_v22 (F := Ideal) x0 x1 x2 x3 x4 (ix2 g d)
      = Spec.segSum (ids x2)
          (fun n => Spec.hnode (val_main_v13 (F := Ideal) x0 x1) x0 (val_main_v14 (F := Ideal) x3) (val_main_v16 (F := Ideal) x4) n d) g := by
  unfold val_main_v22
  show Ideal.hostScatterAdd scatter_S64x128_S50000x1_S50000x128_1_0_0_1 (val_main_v20 (F := Ideal)) (val_main_v21 (F := Ideal) x2)
    (val_main_v19 (F := Ideal) x0 x1 x3 x4) (ix2 g d) = _
  rw [Cert.LibScatterRows.scatterAdd_rows_apply scatter_S64x128_S50000x1_S50000x128_1_0_0_1 rfl rfl rfl rfl,
    val_main_v20_apply, val_main_cst_1_apply, Ideal.ofBits_def, Ideal.ofBits_zero_f32, zero_add]
  unfold Spec.segSum ids
  refine Finset.sum_congr rfl fun n _ => ?_
  rw [val_main_v21_apply, idx21, hidden_apply]

/-- THE COUNTS at `g`: the segment sum of ones. -/
theorem cnts_apply (x2 : (⟨S50000, .i32⟩ : BufTy).Contents (Elt Ideal)) (g : Fin 64) :
    val_main_v26 (F := Ideal) x2 (ix1 g) = Spec.segSum (ids x2) (fun _ => 1) g := by
  unfold val_main_v26
  show Ideal.hostScatterAdd scatter_S64_S50000x1_S50000_n_0_0_1 (val_main_v24 (F := Ideal)) (val_main_v25 (F := Ideal) x2)
    (val_main_v23 (F := Ideal)) (ix1 g) = _
  rw [Cert.LibScatterRows.scatterAdd_vec_apply scatter_S64_S50000x1_S50000_n_0_0_1 rfl rfl rfl rfl,
    val_main_v24_apply, val_main_cst_3_apply, Ideal.ofBits_def, Ideal.ofBits_zero_f32, zero_add]
  unfold Spec.segSum ids
  refine Finset.sum_congr rfl fun n _ => ?_
  rw [val_main_v25_apply, idx25, val_main_v23_apply, val_main_cst_2_apply, Ideal.ofBits_def, Ideal.ofBits_one_f32]

theorem idx2930 (g : Fin 64) (d : Fin 128) : idx_main_v29 (idx_main_v30 (ix2 g d)) = ix1 g :=
  funext fun a => Fin.ext (by match a with | ⟨0, _⟩ => rfl)

/-- THE MEAN at `(g, d)`: the pooled sum over the count clamped below by one. -/
theorem mean_apply (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 x4 : (⟨S128x128, .f32⟩ : BufTy).Contents (Elt Ideal)) (g : Fin 64) (d : Fin 128) :
    val_main_v31 (F := Ideal) x0 x1 x2 x3 x4 (ix2 g d)
      = Ideal.div
          (Spec.segSum (ids x2)
            (fun n => Spec.hnode (val_main_v13 (F := Ideal) x0 x1) x0 (val_main_v14 (F := Ideal) x3) (val_main_v16 (F := Ideal) x4) n d) g)
          (max (Spec.segSum (ids x2) (fun _ => 1) g) 1) := by
  rw [val_main_v31_apply, val_main_v30_apply, val_main_v29_apply, idx2930, val_main_v28_apply, val_main_v27_apply,
    val_main_cst_4_apply, sums_apply, cnts_apply, Ideal.hostDivf_def, Ideal.maximumf_def, Ideal.ofBits_def, Ideal.ofBits_one_f32]

theorem lidx33 (g : Fin 64) (o : Fin 10) (k : Fin 128) : lidx_main_v33 (ix2 g o) k = ix2 g k :=
  funext fun a => Fin.ext (by match a with | ⟨0, _⟩ => rfl | ⟨1, _⟩ => rfl)

theorem ridx33 (g : Fin 64) (o : Fin 10) (k : Fin 128) : ridx_main_v33 (ix2 g o) k = ix2 k o :=
  funext fun a => Fin.ext (by match a with | ⟨0, _⟩ => rfl | ⟨1, _⟩ => rfl)

/-- THE REFERENCE'S RESULT is the specification of the reference's own aggregated features, the node features,
    the transposed weights and the graph ids. -/
theorem result_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 x4 : (⟨S128x128, .f32⟩ : BufTy).Contents (Elt Ideal)) (x5 : (⟨S10x128, .f32⟩ : BufTy).Contents (Elt Ideal)) :
    val_main_v33 (F := Ideal) x0 x1 x2 x3 x4 x5
      = Spec.out (val_main_v13 (F := Ideal) x0 x1) x0 (val_main_v14 (F := Ideal) x3) (val_main_v16 (F := Ideal) x4)
          (val_main_v32 (F := Ideal) x5) (ids x2) := by
  funext i
  obtain ⟨g, o, rfl⟩ : ∃ (g : Fin 64) (o : Fin 10), i = ix2 g o := ⟨i 0, i 1, eq_ix2 i⟩
  rw [val_main_v33_apply, Spec.out_ix2]
  unfold Spec.outAt
  refine Finset.sum_congr rfl fun k _ => ?_
  rw [lidx33, ridx33, mean_apply]

end Cert.ReferenceIdeal.RefValue

end
-- ==== Proof.Bridge.lean ====
/-
  The arrays the kernel's region finds are the reference's stages.

  Before the region the kernel's host operations compute, from the argument arrays, exactly what the reference
  computes first: the neighbour aggregation (gather of the source rows, scatter-add by destination into zeros),
  and the three transposed weight matrices; the node features are an argument as it is. The graph-id column is
  the id vector reshaped to a column in the kernel and broadcast to a column in the reference: row `n` of
  either is the vector's entry `n`. So the kernel's output array, the specification at the arrays its region
  finds, is the specification at the reference's stages.
-/
import proofs.«407730_j60662118089064_1_alg».proof.Proof.Final
import proofs.«407730_j60662118089064_1_alg».proof.Proof.RefValue
import Idealize.ShloMosaic.Lib.Pipeline.Value
import Idealize.ShloMosaic.Lib.StableHlo.Run

set_option maxRecDepth 16384

noncomputable section

namespace Cert.Bridge

open Cert.KernelIdeal Cert.KernelIdeal.Gen Cert.KernelIdeal.Blocks
open Idealize.ShloMosaic Idealize.ShloMosaic.TcCoe Idealize.ShloMosaic.ValueIdx Idealize.ShloMosaic.StableHlo Idealize.SL Idealize.SL.Sem

variable (m : (ℓ : Loc nD τ sig) → Buf (Elt Ideal) ℓ)

/-- The node features are an argument. -/
theorem arrX_eq (c : Dev nD) : arrX m c = (m ((c : Thread nD τ).loc main_arg0)) := by
  unfold arrX
  exact V_main_arg0 m c

theorem arrWr_eq (c : Dev nD) : arrWr m c = Cert.ReferenceIdeal.Read.val_main_v14 (F := Ideal) (m ((c : Thread nD τ).loc main_arg3)) := by
  unfold arrWr
  show (V m c main_v15 : S128x128.Idx → EReal) = _
  dsimp only [Gen.V, Gen.hostOps0]
  after_results
  rfl

theorem arrWo_eq (c : Dev nD) : arrWo m c = Cert.ReferenceIdeal.Read.val_main_v16 (F := Ideal) (m ((c : Thread nD τ).loc main_arg4)) := by
  unfold arrWo
  show (V m c main_v16 : S128x128.Idx → EReal) = _
  dsimp only [Gen.V, Gen.hostOps0]
  after_results
  rfl

theorem arrWt_eq (c : Dev nD) : arrWt m c = Cert.ReferenceIdeal.Read.val_main_v32 (F := Ideal) (m ((c : Thread nD τ).loc main_arg5)) := by
  unfold arrWt
  show (V m c main_v17 : S128x10.Idx → EReal) = _
  dsimp only [Gen.V, Gen.hostOps0]
  after_results
  rfl

theorem arrId_eq (c : Dev nD) : arrId m c = shapeCast S50000x1 (m ((c : Thread nD τ).loc main_arg2)) shapeCasts_S50000_S50000x1 := by
  unfold arrId
  show (V m c main_v14 : S50000x1.Idx → BitVec 32) = _
  dsimp only [Gen.V, Gen.hostOps0]
  after_results
  rfl

/-- Row `n` of the id column is entry `n` of the id vector, in both programs. -/
theorem ids_eq (c : Dev nD) : Accum.ids m c = Cert.ReferenceIdeal.RefValue.ids (m ((c : Thread nD τ).loc main_arg2)) := by
  funext n
  unfold Accum.ids Cert.ReferenceIdeal.RefValue.ids
  rw [arrId_eq]
  exact shapeCast_apply (m ((c : Thread nD τ).loc main_arg2)) shapeCasts_S50000_S50000x1 (ix2 n ⟨0, Nat.one_pos⟩) (ix1 n)
    (by
      show (S50000.rowMajor (ix1 n)).val = (S50000x1.rowMajor (ix2 n ⟨0, Nat.one_pos⟩)).val
      rewrite [Shape.rowMajor_val_one, Shape.rowMajor_val_two]
      show n.val = n.val * 1 + 0
      omega)

theorem arrAgg_eq (c : Dev nD) : arrAgg m c = Cert.ReferenceIdeal.Read.val_main_v13 (F := Ideal) (m ((c : Thread nD τ).loc main_arg0)) (m ((c : Thread nD τ).loc main_arg1)) := by
  unfold arrAgg
  show (V m c main_v13 : S50000x128.Idx → EReal) = _
  dsimp only [Gen.V, Gen.hostOps0]
  after_results
  rfl

/-- THE KERNEL'S OUTPUT ARRAY is the specification at the reference's stages of the kernel's argument arrays. -/
theorem out_eq (c : Dev nD) :
    Final.outArr m c
      = Spec.out (Cert.ReferenceIdeal.Read.val_main_v13 (F := Ideal) (m ((c : Thread nD τ).loc main_arg0)) (m ((c : Thread nD τ).loc main_arg1))) (m ((c : Thread nD τ).loc main_arg0))
          (Cert.ReferenceIdeal.Read.val_main_v14 (F := Ideal) (m ((c : Thread nD τ).loc main_arg3))) (Cert.ReferenceIdeal.Read.val_main_v16 (F := Ideal) (m ((c : Thread nD τ).loc main_arg4)))
          (Cert.ReferenceIdeal.Read.val_main_v32 (F := Ideal) (m ((c : Thread nD τ).loc main_arg5))) (Cert.ReferenceIdeal.RefValue.ids (m ((c : Thread nD τ).loc main_arg2))) := by
  unfold Final.outArr
  rw [arrAgg_eq, arrX_eq, arrWr_eq, arrWo_eq, arrWt_eq, ids_eq]

end Cert.Bridge

end
-- ==== Proof.lean ====
/-
  A graph convolution, mean pooling by graph and a linear readout, as one fused kernel against its plain reference:
  the proof of `Cert.Claim`.

  Both programs first aggregate each node's neighbours (gather the source rows of the 800000 edges, scatter-add them by
  destination into zeros) with the same host operations. The hidden feature of node `n`, channel `d`, is
  `max (Σ_k agg(n,k)·Wrel(d,k) + Σ_k x(n,k)·Wroot(d,k)) 0` in both: the kernel computes it block by block (ten blocks of
  5000 nodes) with two matrix products into zero accumulators, the reference for all nodes at once; a change of float
  format is the identity over the extended reals. The two then POOL differently. The reference scatter-adds the hidden
  features by graph id into a zero 64 x 128 array, and ones into a zero count vector. The kernel builds, per block, the
  one-hot matrix of "id word = graph number", multiplies its transpose into the hidden block and into a block of ones,
  and accumulates both products across the ten grid points in two scratch arrays zeroed at the first point. Over the
  extended reals the one-hot entry is exactly 1 or 0, `1·y = y` and `0·y = 0` for every `y` (infinite ones too), a
  graph number below 64 equals an id word exactly when it equals the word read signed, and regrouping a finite sum
  by blocks changes nothing in a commutative monoid: the accumulated products are the segment sums, with no appeal to
  the inputs' finiteness. At the last point the kernel divides the sums by the counts clamped below by one and
  multiplies by the transposed readout matrix, as the reference does with its count vector broadcast along the channels.
  So both results are `out(g,o) = Σ_d (segsum_d(g) / max (count(g)) 1) · Wout(o,d)` (`Cert.Spec.out`).

  The modules: Spec (the function), PoolLaw (the one-hot law), Payload (the body's arithmetic at an index), Pieces (what
  each control case leaves), Blocks (the grid points' blocks and steps), Accum (the accumulators by induction over the
  points), Final (the output array after the run), RefValue (the reference's result at an index), Bridge (the arrays the
  kernel's region finds are the reference's stages).
-/
import proofs.«407730_j60662118089064_1_alg».proof.Defs
import proofs.«407730_j60662118089064_1_alg».proof.Proof.Gen.Kernel
import proofs.«407730_j60662118089064_1_alg».proof.Proof.Gen.Kernel.Skeleton
import proofs.«407730_j60662118089064_1_alg».proof.Proof.Gen.Kernel.Launch
import proofs.«407730_j60662118089064_1_alg».proof.Proof.Gen.Kernel.Points
import proofs.«407730_j60662118089064_1_alg».proof.Proof.Gen.Kernel.Frame
import proofs.«407730_j60662118089064_1_alg».proof.Proof.Gen.KernelIdeal
import proofs.«407730_j60662118089064_1_alg».proof.Proof.Gen.KernelIdeal.Skeleton
import proofs.«407730_j60662118089064_1_alg».proof.Proof.Gen.KernelIdeal.Launch
import proofs.«407730_j60662118089064_1_alg».proof.Proof.Gen.KernelIdeal.Points
import proofs.«407730_j60662118089064_1_alg».proof.Proof.Gen.KernelIdeal.Frame
import proofs.«407730_j60662118089064_1_alg».proof.Proof.Gen.ReferenceIdeal
import proofs.«407730_j60662118089064_1_alg».proof.Proof.Gen.Pre_finite_inputs
import proofs.«407730_j60662118089064_1_alg».proof.Proof.Gen.KernelIdeal.Value
import proofs.«407730_j60662118089064_1_alg».proof.Proof.Gen.ReferenceIdeal.Run
import proofs.«407730_j60662118089064_1_alg».proof.Proof.Gen.ReferenceIdeal.Read
import Idealize.ShloMosaic.Adequacy
import Idealize.ShloMosaic.Init
import proofs.«407730_j60662118089064_1_alg».proof.Proof.Bridge

noncomputable section

namespace Cert.Proof

open Idealize.ShloMosaic Idealize.SL.Sem

/-- The kernel as printed runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Over the extended reals, from memories agreeing on the arguments, the kernel's output array is the pooled
    readout `Cert.Spec.out` of the arrays its region finds (`Final.run`), the reference's result is the same function
    of its own stages (`RefValue.result_eq`), and the arrays are the stages (`Bridge.out_eq`). -/
theorem algebraic : Cert.algebraic_KernelIdeal_ReferenceIdeal := by
  intro m ρ m' ρ' _ hagree
  refine ⟨fun c => Cert.KernelIdeal.Final.outArr m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [Cert.ReferenceIdeal.Read.val_main_v33_eq, Cert.ReferenceIdeal.RefValue.result_eq, e0, e1, e2, e3, e4, e5]
  exact (Cert.Bridge.out_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
